-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S28x28x128x1024 : Shape := ⟨4, ![28, 28, 128, 1024]⟩
abbrev S_ : Shape := ⟨0, ![]⟩

class Facts : Prop where
  bitsLt_bf16_f32 : FTy.bits .bf16 < FTy.bits .f32
  bcast_S_S28x28x128x1024 : S_.BroadcastsInDim S28x28x128x1024 (![] : Fin 0 → Fin S28x28x128x1024.rank)
  reducesTo_S28x28x128x1024_S_d0_1_2_3 : S28x28x128x1024.ReducesTo [0, 1, 2, 3] S_
  h_S_ : 0 < S_.numel

variable [Facts]

def fn {F : FTy → Type} [FloatOps F] (main_arg0 : FVec F S28x28x128x1024 .bf16) : IVec S_ 1 :=
  let main_v0 : FVec F S28x28x128x1024 .f32 := (extf .f32 · bitsLt_bf16_f32) main_arg0
  let main_v1 : FVec F S28x28x128x1024 .f32 := Host.absf main_v0
  let main_cst : FVec F S_ .f32 := constant S_ .f32 0x7F800000#32
  let main_v2 : FVec F S28x28x128x1024 .f32 := broadcastInDim S28x28x128x1024 ![] bcast_S_S28x28x128x1024 main_cst
  let main_v3 : IVec S28x28x128x1024 1 := cmpf .olt main_v1 main_v2
  let main_c : IVec S_ 1 := constantI S_ 1 1#1
  let main_v4 : IVec S_ 1 := (fun x v => Host.reduce IntOp.andi x v reducesTo_S28x28x128x1024_S_d0_1_2_3 h_S_) main_v3 main_c
  main_v4
-- ==== Kernel.lean ====
abbrev S28x28x128x1024 : Shape := ⟨4, ![28, 28, 128, 1024]⟩
abbrev S100352x1024 : Shape := ⟨2, ![100352, 1024]⟩
abbrev S2x8x1024 : Shape := ⟨3, ![2, 8, 1024]⟩
abbrev S7168x1024 : Shape := ⟨2, ![7168, 1024]⟩
abbrev S1x8x1024 : Shape := ⟨3, ![1, 8, 1024]⟩
abbrev S2x448x8x1024 : Shape := ⟨4, ![2, 448, 8, 1024]⟩
abbrev S8x1024 : Shape := ⟨2, ![8, 1024]⟩
abbrev S_ : Shape := ⟨0, ![]⟩
abbrev S1024 : Shape := ⟨1, ![1024]⟩

abbrev nBuf : Space → Nat
  | .hbm => 17
  | .vmem => 6
  | .smem => 0
  | _ => 0

abbrev bufTy : (tb : Table) → Fin (tcTables nBuf tb) → BufTy
  | .hbm, ⟨0, _⟩ => ⟨S28x28x128x1024, .bf16⟩
  | .hbm, ⟨1, _⟩ => ⟨S100352x1024, .bf16⟩
  | .hbm, ⟨2, _⟩ => ⟨S2x8x1024, .f32⟩
  | .hbm, ⟨3, _⟩ => ⟨S2x8x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .local _ .vmem, ⟨0, _⟩ => ⟨S7168x1024, .bf16⟩
  | .local _ .vmem, ⟨1, _⟩ => ⟨S7168x1024, .bf16⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | _, _ => ⟨S28x28x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 7], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_9 : BitVec 32 := 7#32
  let v17 : BitVec 1 := Scalar.cmpi .eq v1 c7_i32_9
  let v18 : BitVec 32 := Scalar.extui v17
  let c0_i32_10 : BitVec 32 := 0#32
  let v19 : BitVec 1 := Scalar.cmpi .ne v18 c0_i32_10
  v19

def k0_cond3 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32 : BitVec 32 := 2#32
  let v20 : BitVec 1 := Scalar.cmpi .eq v1 c2_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S7168x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S28x28x128x1024_S100352x1024 : S28x28x128x1024.ShapeCasts S100352x1024
  inb_S1x8x1024_S1x8x1024_0_0_0 : ∀ a, (![0, 0, 0] : Fin 3 → Nat) a + S1x8x1024.size a ≤ S1x8x1024.size a
  h_S1x8x1024 : 0 < S1x8x1024.numel
  inb_S7168x1024_S7168x1024_0_0 : ∀ a, (![0, 0] : Fin 2 → Nat) a + S7168x1024.size a ≤ S7168x1024.size a
  h_S7168x1024 : 0 < S7168x1024.numel
  shapeCasts_S7168x1024_S7168x1024 : S7168x1024.ShapeCasts S7168x1024
  shapeCasts_S7168x1024_S2x448x8x1024 : S7168x1024.ShapeCasts S2x448x8x1024
  bitsLt_bf16_f32 : FTy.bits .bf16 < FTy.bits .f32
  reduces_S2x448x8x1024_S2x8x1024 : S2x448x8x1024.Reduces [1] S2x8x1024
  shapeCasts_S1x8x1024_S8x1024 : S1x8x1024.ShapeCasts S8x1024
  reduces_S2x8x1024_S8x1024 : S2x8x1024.Reduces [0] S8x1024
  shapeCasts_S8x1024_S1x8x1024 : S8x1024.ShapeCasts S1x8x1024
  slices_S2x8x1024_o0_0_0_S1x8x1024 : S2x8x1024.Slices ![0, 0, 0] S1x8x1024
  reducesTo_S2x8x1024_S1024_d0_1 : S2x8x1024.ReducesTo [0, 1] S1024
  h_S_ : 0 < S_.numel
  bcast_S_S1024 : S_.BroadcastsInDim S1024 (![] : Fin 0 → Fin S1024.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7168x1024.size a ≤ S100352x1024.size a
  hwx0_0 : ∀ i : grid0.Coords, EltTy.bits .bf16 = 32 ∨ (Rect.block (s := S100352x1024) S7168x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1024.size a ≤ S2x8x1024.size a
  hwx0_1 : ∀ i : grid0.Coords, EltTy.bits .f32 = 32 ∨ (Rect.block (s := S2x8x1024) S1x8x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1024.size a ≤ S2x8x1024.size a
  hwx0_2 : ∀ i : grid0.Coords, EltTy.bits .f32 = 32 ∨ (Rect.block (s := S2x8x1024) S1x8x1024.size (cc0_transform_2 i) (hinb0_2 i)).WholeWords (EltTy.packing .f32)

variable [Facts₀]

abbrev win0_0 : Pipeline.Window sig grid0 :=
  Pipeline.Window.ofSpec (Memref.whole main_v0) S7168x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x8x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x8x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S28x28x128x1024 : Shape := ⟨4, ![28, 28, 128, 1024]⟩
abbrev S2x8x1024 : Shape := ⟨3, ![2, 8, 1024]⟩
abbrev S1x14x128x1024 : Shape := ⟨4, ![1, 14, 128, 1024]⟩
abbrev S1x8x1024 : Shape := ⟨3, ![1, 8, 1024]⟩
abbrev S1x14x1024 : Shape := ⟨3, ![1, 14, 1024]⟩
abbrev S1x1024 : Shape := ⟨2, ![1, 1024]⟩
abbrev S1024 : Shape := ⟨1, ![1024]⟩
abbrev S1x1x1024 : Shape := ⟨3, ![1, 1, 1024]⟩
abbrev S2x1x1024 : Shape := ⟨3, ![2, 1, 1024]⟩
abbrev S2x1024 : Shape := ⟨2, ![2, 1024]⟩
abbrev S_ : Shape := ⟨0, ![]⟩

abbrev nBuf : Space → Nat
  | .hbm => 20
  | .vmem => 6
  | .smem => 0
  | _ => 0

abbrev bufTy : (tb : Table) → Fin (tcTables nBuf tb) → BufTy
  | .hbm, ⟨0, _⟩ => ⟨S28x28x128x1024, .bf16⟩
  | .hbm, ⟨1, _⟩ => ⟨S2x8x1024, .f32⟩
  | .hbm, ⟨2, _⟩ => ⟨S2x8x1024, .f32⟩
  | .hbm, ⟨3, _⟩ => ⟨S2x1x1024, .f32⟩
  | .hbm, ⟨4, _⟩ => ⟨S2x1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S2x1x1024, .f32⟩
  | .hbm, ⟨11, _⟩ => ⟨S2x1024, .f32⟩
  | .hbm, ⟨12, _⟩ => ⟨S_, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .local _ .vmem, ⟨0, _⟩ => ⟨S1x14x128x1024, .bf16⟩
  | .local _ .vmem, ⟨1, _⟩ => ⟨S1x14x128x1024, .bf16⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | _, _ => ⟨S28x28x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 28], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x14x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x8x1024_S1x8x1024_0_0_0 : ∀ a, (![0, 0, 0] : Fin 3 → Nat) a + S1x8x1024.size a ≤ S1x8x1024.size a
  h_S1x8x1024 : 0 < S1x8x1024.numel
  inb_S1x14x128x1024_S1x14x128x1024_0_0_0_0 : ∀ a, (![0, 0, 0, 0] : Fin 4 → Nat) a + S1x14x128x1024.size a ≤ S1x14x128x1024.size a
  h_S1x14x128x1024 : 0 < S1x14x128x1024.numel
  bitsLt_bf16_f32 : FTy.bits .bf16 < FTy.bits .f32
  reduces_S1x14x128x1024_S1x14x1024 : S1x14x128x1024.Reduces [2] S1x14x1024
  reduces_S1x14x1024_S1x1024 : S1x14x1024.Reduces [1] S1x1024
  reduces_S1x1024_S1024 : S1x1024.Reduces [0] S1024
  shapeCasts_S1024_S1x1024 : S1024.ShapeCasts S1x1024
  iota_S1x1024_d0_w32 : S1x1024.Iotas .tc 32 [0]
  shapeCasts_S1x8x1024_S1x8x1024 : S1x8x1024.ShapeCasts S1x8x1024
  shapeCasts_S1x1024_S1x1x1024 : S1x1024.ShapeCasts S1x1x1024
  broadcasts_S1x1x1024_S1x8x1024 : S1x1x1024.Broadcasts S1x8x1024
  slices_S2x8x1024_S2x1x1024_0_0_0 : S2x8x1024.Slices ![0, 0, 0] S2x1x1024
  shapeCasts_S2x1x1024_S2x1024 : S2x1x1024.ShapeCasts S2x1024
  reducesTo_S2x1024_S1024_d0 : S2x1024.ReducesTo [0] S1024
  h_S_ : 0 < S_.numel
  bcast_S_S1024 : S_.BroadcastsInDim S1024 (![] : Fin 0 → Fin S1024.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x14x128x1024.size a ≤ S28x28x128x1024.size a
  hwx0_0 : ∀ i : grid0.Coords, EltTy.bits .bf16 = 32 ∨ (Rect.block (s := S28x28x128x1024) S1x14x128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1024.size a ≤ S2x8x1024.size a
  hwx0_1 : ∀ i : grid0.Coords, EltTy.bits .f32 = 32 ∨ (Rect.block (s := S2x8x1024) S1x8x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1024.size a ≤ S2x8x1024.size a
  hwx0_2 : ∀ i : grid0.Coords, EltTy.bits .f32 = 32 ∨ (Rect.block (s := S2x8x1024) S1x8x1024.size (cc0_transform_2 i) (hinb0_2 i)).WholeWords (EltTy.packing .f32)

variable [Facts₀]

abbrev win0_0 : Pipeline.Window sig grid0 :=
  Pipeline.Window.ofSpec (Memref.whole main_arg0) S1x14x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x8x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x8x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.Spec.lean ====
/-
  The mathematics both programs compute, as functions of the one argument array.

  The argument is an array x[l, h, q, v] of extents 28 x 28 x 128 x 1024. Viewed as a matrix of
  100352 = 28 * 3584 rows (row n = 3584 * l + 128 * h + q) by 1024 columns, `lay x n v` is its entry at row n and
  column v (zero for a row number outside the matrix, so that sums over row numbers need no bound proofs).

  The streaming kernel walks the rows in 14 blocks of 7168 rows (two layers each). Within a block it keeps, for each of
  the eight residues s of the row number modulo 8, the sum over the block's rows of that residue (`kPart`); the first
  layer of a block alone is `kLayer`. Its first result array holds, per half hb and residue s, the sum of `kPart` over
  the seven blocks of the half (`msumK`); its second holds minus the layer-4 partial sums in half 0 and the layer-14
  partial sums in half 1 (`csumK`).

  The reference walks the layers one at a time, separately for the two halves of the head axis (heads 14 * hb + h);
  `rLayer` is one layer's sum over a half's heads and all queries. Its result arrays hold, per half, the sum of `rLayer`
  over the 28 layers (`msumR`), and the same sum weighted by the sign [lk = 14] - [lk = 4] (`csumR`).
-/
import Idealize.ShloMosaic.PureOps.Ideal
import Idealize.ShloMosaic.Lib.ValueIdx

noncomputable section

namespace Cert.Spec

open Idealize.ShloMosaic Idealize.ShloMosaic.ValueIdx

/-- The argument's shape, the two accumulator arrays' shape, and the results' shape. -/
abbrev X4 : Shape := ⟨4, ![28, 28, 128, 1024]⟩
abbrev A3 : Shape := ⟨3, ![2, 8, 1024]⟩
abbrev V1 : Shape := ⟨1, ![1024]⟩

/-- Row `n`, column `v` of the argument read as a 100352 x 1024 matrix; zero outside. -/
def lay (x : X4.Idx → EReal) (n : ℕ) (v : Fin 1024) : EReal :=
  if h : n < 100352 then
    x (ix4 (⟨n / 3584, by omega⟩ : Fin 28) (⟨n / 128 % 28, by omega⟩ : Fin 28) (⟨n % 128, by omega⟩ : Fin 128) v)
  else 0

/-- Block `t` of 7168 rows: the sum of its rows congruent to `s` modulo 8, over both of its layers. -/
def kPart (x : X4.Idx → EReal) (t : ℕ) (s : Fin 8) (v : Fin 1024) : EReal :=
  ∑ k : Fin 2, ∑ r : Fin 448, lay x (7168 * t + 3584 * k.val + 8 * r.val + s.val) v

/-- The same over the block's first layer only. -/
def kLayer (x : X4.Idx → EReal) (t : ℕ) (s : Fin 8) (v : Fin 1024) : EReal :=
  ∑ r : Fin 448, lay x (7168 * t + 8 * r.val + s.val) v

/-- The kernel's accumulated sums: half `hb` adds up its seven blocks. -/
def msumK (x : X4.Idx → EReal) : A3.Idx → EReal := fun j =>
  ∑ b ∈ Finset.range 7, kPart x (7 * (j 0).val + b) (j 1) (j 2)

/-- The kernel's contrast sums: minus layer 4 (first layer of block 2) in half 0, layer 14 (first layer of block 7) in half 1. -/
def csumK (x : X4.Idx → EReal) : A3.Idx → EReal := fun j =>
  if (j 0).val = 0 then 0 - kLayer x 2 (j 1) (j 2) else 0 + kLayer x 7 (j 1) (j 2)

/-- Layer `lk`, half `hb` of the heads: the sum over the half's 14 heads and the 128 queries. -/
def rLayer (x : X4.Idx → EReal) (lk hb : ℕ) (v : Fin 1024) : EReal :=
  ∑ h : Fin 14, ∑ q : Fin 128, lay x (3584 * lk + 128 * (14 * hb + h.val) + q.val) v

/-- The contrast weight of a layer. -/
def sgn (lk : ℕ) : EReal := (if lk = 14 then (1 : EReal) else 0) - (if lk = 4 then (1 : EReal) else 0)

/-- The reference's accumulated sums (the same on each of the eight rows of the accumulator). -/
def msumR (x : X4.Idx → EReal) : A3.Idx → EReal := fun j =>
  ∑ lk ∈ Finset.range 28, rLayer x lk (j 0).val (j 2)

/-- The reference's contrast sums. -/
def csumR (x : X4.Idx → EReal) : A3.Idx → EReal := fun j =>
  ∑ lk ∈ Finset.range 28, sgn lk * rLayer x lk (j 0).val (j 2)

/-- The kernel's way of collapsing an accumulator array: over both halves and all eight rows. -/
def foldK (A : A3.Idx → EReal) : V1.Idx → EReal := fun j => ∑ hb : Fin 2, ∑ s : Fin 8, A (ix3 hb s (j 0))

/-- The reference's way: over both halves, row 0 only. -/
def foldR (A : A3.Idx → EReal) : V1.Idx → EReal := fun j => ∑ hb : Fin 2, A (ix3 hb (0 : Fin 8) (j 0))

/-- The mean result from the collapsed sums: division by the element count 100352 (the word is its f32 pattern). -/
def outMean (R : V1.Idx → EReal) : V1.Idx → EReal := fun j => Ideal.div (R j) (Ideal.ofBits .f32 0x47C40000#32)

/-- The contrast result: division by 3584, then the maximum with zero. -/
def outContr (R : V1.Idx → EReal) : V1.Idx → EReal := fun j =>
  max (Ideal.div (R j) (Ideal.ofBits .f32 0x45600000#32)) (Ideal.ofBits .f32 0x00000000#32)

end Cert.Spec

end
-- ==== Proof.Algebra.lean ====
/-
  The two collapses agree. Both the kernel's accumulator (eight residue rows per half, seven two-layer blocks per half)
  and the reference's (one row per half, 28 layers per half, 14 heads per half) add up every row of the
  100352 x 1024 matrix exactly once; and the contrast sums pick layer 14 minus layer 4 on both sides.
-/
import proofs.«156739_g2000006290178658_pallasbulk_805_4_alg».proof.Proof.Spec

noncomputable section

namespace Cert.Spec

open Idealize.ShloMosaic Idealize.ShloMosaic.ValueIdx

section Regroup

variable {M : Type*} [AddCommMonoid M]

/-- Mixed radix, two digits: the double sum over i < a, j < b of g (b * i + j) is the sum of g over n < a * b. -/
private theorem sum_range_mul (a b : ℕ) (g : ℕ → M) :
    ∑ i ∈ Finset.range a, ∑ j ∈ Finset.range b, g (b * i + j) = ∑ n ∈ Finset.range (a * b), g n := by
  induction a with
  | zero => simp
  | succ a ih =>
    rw [Finset.sum_range_succ, ih, Nat.add_mul, Nat.one_mul, Finset.sum_range_add, Nat.mul_comm b a]

/-- The same with the low digit outermost: s < c, r < a, index c * r + s. -/
private theorem sum_range_strided (a c : ℕ) (g : ℕ → M) :
    ∑ s ∈ Finset.range c, ∑ r ∈ Finset.range a, g (c * r + s) = ∑ n ∈ Finset.range (a * c), g n := by
  rw [Finset.sum_comm]; exact sum_range_mul a c g

/-- Three digits. -/
private theorem sum_range_mul3 (a b c : ℕ) (g : ℕ → M) :
    ∑ i ∈ Finset.range a, ∑ j ∈ Finset.range b, ∑ k ∈ Finset.range c, g (c * (b * i + j) + k)
      = ∑ n ∈ Finset.range (a * b * c), g n := by
  rw [← sum_range_mul (a * b) c g, ← sum_range_mul a b (fun m => ∑ k ∈ Finset.range c, g (c * m + k))]

/-- Four digits. -/
private theorem sum_range_mul4 (a b c d : ℕ) (g : ℕ → M) :
    ∑ i ∈ Finset.range a, ∑ j ∈ Finset.range b, ∑ k ∈ Finset.range c, ∑ l ∈ Finset.range d,
        g (d * (c * (b * i + j) + k) + l)
      = ∑ n ∈ Finset.range (a * b * c * d), g n := by
  rw [← sum_range_mul (a * b * c) d g,
    ← sum_range_mul3 a b c (fun m => ∑ l ∈ Finset.range d, g (d * m + l))]

/-- The kernel's order of summation visits every row once: row = 8 * (448 * (2 * (7 * hb + b) + k) + r) + s. -/
private theorem regroupK (f : ℕ → M) :
    ∑ hb : Fin 2, ∑ s : Fin 8, ∑ b ∈ Finset.range 7, ∑ k : Fin 2, ∑ r : Fin 448,
        f (7168 * (7 * hb.val + b) + 3584 * k.val + 8 * r.val + s.val)
      = ∑ n ∈ Finset.range 100352, f n := by
  have e : ∑ hb : Fin 2, ∑ s : Fin 8, ∑ b ∈ Finset.range 7, ∑ k : Fin 2, ∑ r : Fin 448,
        f (7168 * (7 * hb.val + b) + 3584 * k.val + 8 * r.val + s.val)
      = ∑ hb ∈ Finset.range 2, ∑ s ∈ Finset.range 8, ∑ b ∈ Finset.range 7, ∑ k ∈ Finset.range 2,
          ∑ r ∈ Finset.range 448, f (8 * (448 * (2 * (7 * hb + b) + k) + r) + s) := by
    simp only [Finset.sum_range]
    exact Finset.sum_congr rfl fun hb _ => Finset.sum_congr rfl fun s _ => Finset.sum_congr rfl fun b _ =>
      Finset.sum_congr rfl fun k _ => Finset.sum_congr rfl fun r _ => congrArg f (by omega)
  have e2 : ∀ s : ℕ, ∑ hb ∈ Finset.range 2, ∑ b ∈ Finset.range 7, ∑ k ∈ Finset.range 2, ∑ r ∈ Finset.range 448,
        f (8 * (448 * (2 * (7 * hb + b) + k) + r) + s) = ∑ m ∈ Finset.range 12544, f (8 * m + s) :=
    fun s => sum_range_mul4 2 7 2 448 (fun m => f (8 * m + s))
  rw [e, Finset.sum_comm, Finset.sum_congr rfl fun s _ => e2 s]
  exact sum_range_strided 12544 8 f

/-- The reference's order of summation visits every row once: row = 128 * (14 * (2 * lk + hb) + h) + q. -/
private theorem regroupR (f : ℕ → M) :
    ∑ hb : Fin 2, ∑ lk ∈ Finset.range 28, ∑ h : Fin 14, ∑ q : Fin 128,
        f (3584 * lk + 128 * (14 * hb.val + h.val) + q.val)
      = ∑ n ∈ Finset.range 100352, f n := by
  have e : ∑ hb : Fin 2, ∑ lk ∈ Finset.range 28, ∑ h : Fin 14, ∑ q : Fin 128,
        f (3584 * lk + 128 * (14 * hb.val + h.val) + q.val)
      = ∑ hb ∈ Finset.range 2, ∑ lk ∈ Finset.range 28, ∑ h ∈ Finset.range 14, ∑ q ∈ Finset.range 128,
          f (128 * (14 * (2 * lk + hb) + h) + q) := by
    simp only [Finset.sum_range]
    exact Finset.sum_congr rfl fun hb _ => Finset.sum_congr rfl fun lk _ => Finset.sum_congr rfl fun h _ =>
      Finset.sum_congr rfl fun q _ => congrArg f (by omega)
  rw [e, Finset.sum_comm]
  exact sum_range_mul4 28 2 14 128 f

/-- One layer of 3584 rows starting at row 7168 * t, summed residue by residue. -/
private theorem layerK (f : ℕ → M) (t : ℕ) :
    ∑ s : Fin 8, ∑ r : Fin 448, f (7168 * t + 8 * r.val + s.val) = ∑ n ∈ Finset.range 3584, f (7168 * t + n) := by
  have e : ∑ s : Fin 8, ∑ r : Fin 448, f (7168 * t + 8 * r.val + s.val)
      = ∑ s ∈ Finset.range 8, ∑ r ∈ Finset.range 448, f (7168 * t + (8 * r + s)) := by
    simp only [Finset.sum_range]
    exact Finset.sum_congr rfl fun s _ => Finset.sum_congr rfl fun r _ => congrArg f (by omega)
  rw [e]
  exact sum_range_strided 448 8 (fun n => f (7168 * t + n))

/-- One layer of 3584 rows starting at row 3584 * L, summed half by half, head by head. -/
private theorem layerR (f : ℕ → M) (L : ℕ) :
    ∑ hb : Fin 2, ∑ h : Fin 14, ∑ q : Fin 128, f (3584 * L + 128 * (14 * hb.val + h.val) + q.val)
      = ∑ n ∈ Finset.range 3584, f (3584 * L + n) := by
  have e : ∑ hb : Fin 2, ∑ h : Fin 14, ∑ q : Fin 128, f (3584 * L + 128 * (14 * hb.val + h.val) + q.val)
      = ∑ hb ∈ Finset.range 2, ∑ h ∈ Finset.range 14, ∑ q ∈ Finset.range 128,
          f (3584 * L + (128 * (14 * hb + h) + q)) := by
    simp only [Finset.sum_range]
    exact Finset.sum_congr rfl fun hb _ => Finset.sum_congr rfl fun h _ => Finset.sum_congr rfl fun q _ =>
      congrArg f (by omega)
  rw [e]
  exact sum_range_mul3 2 14 128 (fun n => f (3584 * L + n))

end Regroup

/-- The mean path: both collapses are the sum of every row of the matrix (a regrouping of one finite sum; no finiteness needed). -/
theorem mean_eq (x : X4.Idx → EReal) : foldK (msumK x) = foldR (msumR x) := by
  funext j
  have hK : foldK (msumK x) j
      = ∑ hb : Fin 2, ∑ s : Fin 8, ∑ b ∈ Finset.range 7, ∑ k : Fin 2, ∑ r : Fin 448,
          lay x (7168 * (7 * hb.val + b) + 3584 * k.val + 8 * r.val + s.val) (j 0) := rfl
  have hR : foldR (msumR x) j
      = ∑ hb : Fin 2, ∑ lk ∈ Finset.range 28, ∑ h : Fin 14, ∑ q : Fin 128,
          lay x (3584 * lk + 128 * (14 * hb.val + h.val) + q.val) (j 0) := rfl
  rw [hK, hR, regroupK (fun n => lay x n (j 0)), regroupR (fun n => lay x n (j 0))]

section Contrast

/-- The inclusion of the reals commutes with finite sums. -/
private theorem coe_sum' {ι : Type*} (s : Finset ι) (g : ι → ℝ) :
    ((∑ i ∈ s, g i : ℝ) : EReal) = ∑ i ∈ s, (g i : EReal) := by
  induction s using Finset.cons_induction with
  | empty => simp
  | cons a s ha ih => rw [Finset.sum_cons, Finset.sum_cons, EReal.coe_add, ih]

/-- A real value is the inclusion of its real part. -/
private theorem coe_toReal_of_real {y : EReal} (h : ∃ r : ℝ, y = (r : EReal)) : y = ((y.toReal : ℝ) : EReal) := by
  obtain ⟨r, rfl⟩ := h; rw [EReal.toReal_coe]

/-- Every entry of the matrix of a real argument is real (an argument entry, or zero). -/
private theorem lay_real (x : X4.Idx → EReal) (hfin : ∀ i, ∃ r : ℝ, x i = (r : EReal)) (n : ℕ) (v : Fin 1024) :
    lay x n v = (((lay x n v).toReal : ℝ) : EReal) := by
  unfold lay
  split_ifs with h
  · exact coe_toReal_of_real (hfin _)
  · rw [EReal.toReal_zero, EReal.coe_zero]

/-- The contrast weight is the inclusion of the real weight [lk = 14] - [lk = 4]. -/
private theorem sgn_coe (lk : ℕ) :
    sgn lk = (((if lk = 14 then (1 : ℝ) else 0) - (if lk = 4 then (1 : ℝ) else 0) : ℝ) : EReal) := by
  unfold sgn
  rw [EReal.coe_sub]
  congr 1 <;> split_ifs <;> simp

/-- The weighted sum over the 28 layers keeps layer 14 and subtracts layer 4. -/
private theorem sum_sgn (R : ℕ → ℝ) :
    ∑ lk ∈ Finset.range 28, ((if lk = 14 then (1 : ℝ) else 0) - (if lk = 4 then (1 : ℝ) else 0)) * R lk
      = R 14 - R 4 := by
  simp only [sub_mul, ite_mul, one_mul, zero_mul, Finset.sum_sub_distrib, Finset.sum_ite_eq', Finset.mem_range]
  rw [if_pos (by decide), if_pos (by decide)]

/-- The kernel's contrast collapse of a real matrix: layer 14 (rows from 7168 * 7) minus layer 4 (rows from 7168 * 2). -/
private theorem contrK (F : ℕ → ℝ) :
    (∑ s : Fin 8, ((0 : EReal) - ∑ r : Fin 448, ((F (7168 * 2 + 8 * r.val + s.val) : ℝ) : EReal)))
      + ∑ s : Fin 8, ((0 : EReal) + ∑ r : Fin 448, ((F (7168 * 7 + 8 * r.val + s.val) : ℝ) : EReal))
    = ((∑ n ∈ Finset.range 3584, F (7168 * 7 + n) - ∑ n ∈ Finset.range 3584, F (7168 * 2 + n) : ℝ) : EReal) := by
  rw [← layerK F 7, ← layerK F 2]
  simp only [zero_sub, zero_add, ← coe_sum', ← EReal.coe_neg, ← EReal.coe_add]
  rw [Finset.sum_neg_distrib, neg_add_eq_sub]

/-- The reference's contrast collapse of a real matrix: layer 14 (rows from 3584 * 14) minus layer 4 (rows from 3584 * 4). -/
private theorem contrR (F : ℕ → ℝ) :
    ∑ hb : Fin 2, ∑ lk ∈ Finset.range 28,
        sgn lk * ∑ h : Fin 14, ∑ q : Fin 128, ((F (3584 * lk + 128 * (14 * hb.val + h.val) + q.val) : ℝ) : EReal)
    = ((∑ n ∈ Finset.range 3584, F (3584 * 14 + n) - ∑ n ∈ Finset.range 3584, F (3584 * 4 + n) : ℝ) : EReal) := by
  rw [← layerR F 14, ← layerR F 4, ← Finset.sum_sub_distrib, coe_sum']
  refine Finset.sum_congr rfl fun hb _ => ?_
  rw [← sum_sgn (fun lk => ∑ h : Fin 14, ∑ q : Fin 128, F (3584 * lk + 128 * (14 * hb.val + h.val) + q.val)),
    coe_sum']
  refine Finset.sum_congr rfl fun lk _ => ?_
  rw [EReal.coe_mul, sgn_coe]
  simp only [coe_sum']

end Contrast

/-- The contrast path, for an argument with real entries: both collapses are (sum of layer 14) - (sum of layer 4). -/
theorem contr_eq (x : X4.Idx → EReal) (hfin : ∀ i, ∃ r : ℝ, x i = (r : EReal)) : foldK (csumK x) = foldR (csumR x) := by
  funext j
  obtain ⟨F, hF⟩ : ∃ F : ℕ → ℝ, ∀ n, lay x n (j 0) = ((F n : ℝ) : EReal) :=
    ⟨fun n => (lay x n (j 0)).toReal, fun n => lay_real x hfin n (j 0)⟩
  have hK : foldK (csumK x) j
      = (∑ s : Fin 8, ((0 : EReal) - ∑ r : Fin 448, lay x (7168 * 2 + 8 * r.val + s.val) (j 0)))
        + ∑ s : Fin 8, ((0 : EReal) + ∑ r : Fin 448, lay x (7168 * 7 + 8 * r.val + s.val) (j 0)) := by
    show ∑ hb : Fin 2, ∑ s : Fin 8, csumK x (ix3 hb s (j 0)) = _
    rw [Fin.sum_univ_two]
    rfl
  have hR : foldR (csumR x) j
      = ∑ hb : Fin 2, ∑ lk ∈ Finset.range 28,
          sgn lk * ∑ h : Fin 14, ∑ q : Fin 128, lay x (3584 * lk + 128 * (14 * hb.val + h.val) + q.val) (j 0) := rfl
  rw [hK, hR]
  simp only [hF]
  rw [contrK F, contrR F]

end Cert.Spec

end
-- ==== Proof.Finite.lean ====
/-
  The precondition says every entry of the argument has absolute value below +infinity; so every entry is a real number.
-/
import proofs.«156739_g2000006290178658_pallasbulk_805_4_alg».proof.Pre_finite_inputs
import proofs.«156739_g2000006290178658_pallasbulk_805_4_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic

/-- The result shape of the all-axes reduction has exactly one index. -/
private instance subsingleton_idx : Subsingleton Cert.Pre_finite_inputs.S_.Idx :=
  ⟨fun a b => funext fun d => d.elim0⟩

/-- An extended real whose absolute value `max a (-a)` is strictly below `⊤` is a real number. -/
private theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- A one-bit word made from a Boolean is 1 only when the Boolean is true. -/
private theorem ofBool_eq_one {b : Bool} (h : BitVec.ofBool b = 1#1) : b = true := by
  cases b with
  | true => rfl
  | false => exact absurd h (by decide)

/-- The f32 word `0x7F800000` denotes `+∞`. -/
private theorem ofBits_inf : Ideal.ofBits .f32 0x7F800000#32 = (⊤ : EReal) := by
  simp [Ideal.ofBits, Ideal.ieee]

/-- Every entry of an argument of which the printed precondition holds is real. -/
theorem real_of_pre [Cert.Pre_finite_inputs.Facts] (x : FVec Ideal Cert.Pre_finite_inputs.S28x28x128x1024 .bf16)
    (h : Cert.Pre_finite_inputs.fn (F := Ideal) x = fun _ => 1#1) : ∀ i, ∃ r : ℝ, x i = (r : EReal) := by
  intro i
  have h0 := congrFun h ValueIdx.ix0
  dsimp only [Cert.Pre_finite_inputs.fn] at h0
  have hi := Host.reduce_andi_all _ _ _ _ _ h0 i
  simp only [cmpf, Host.absf, extf, broadcastInDim, constant, Ideal.hostAbsf_def, Ideal.extf_def, Ideal.ofBits_def,
    Ideal.cmpf_def, Ideal.absf_def, Ideal.cmp, ofBits_inf] at hi
  have hlt : max (x i) (-x i) < ⊤ := by simpa using ofBool_eq_one hi
  exact real_of_abs_lt_top (x i) hlt

end Cert.Finite

end
-- ==== Proof.KRun.lean ====
/-
  The kernel body at one grid point, in each of the four combinations of its three branches that the grid meets.
  The body adds the block's per-residue row sums (both layers) to the first accumulator, after zeroing both
  accumulators when the point opens a half; and it adds (block 7) or subtracts (block 2) the block's first layer to or from
  the second accumulator. Each lemma says: from the block and the accumulators at given contents the body runs and
  leaves the block as it was and the accumulators at the stated pure functions of those contents.
-/
import proofs.«156739_g2000006290178658_pallasbulk_805_4_alg».proof.Proof.Gen.KernelIdeal.Skeleton
import proofs.«156739_g2000006290178658_pallasbulk_805_4_alg».proof.Proof.Gen.KernelIdeal.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The three branch conditions, as propositions over the grid point. -/
abbrev cond0 (i : grid0.Coords) : Prop := k0_cond1 i = 1#1
abbrev cond1 (i : grid0.Coords) : Prop := k0_cond2 i = 1#1
abbrev cond2 (i : grid0.Coords) : Prop := k0_cond3 i = 1#1

theorem hz2 : (![0, 0] : Fin 2 → Nat) = fun _ => 0 := by funext a; fin_cases a <;> rfl
theorem hz3 : (![0, 0, 0] : Fin 3 → Nat) = fun _ => 0 := by funext a; fin_cases a <;> rfl

/-- Reading a buffer back after a list of writes whose last one covers the whole buffer gives that write's payload. -/
theorem read_writes_cons_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., View.mem_set_unit_zero h inb y⟩),
    View.canon_cons_unit_zero h]

set_option maxHeartbeats 1000000 in
/-- No branch taken: the first accumulator gains the block's sums, the second is untouched. -/
theorem run_B (c : Dev nD) (i : grid0.Coords) (arg2 : Memref sig .tc .vmem S7168x1024 .bf16) (harg2 : arg2.IsWhole)
    (arg3 : Memref sig .tc .vmem S1x8x1024 .f32) (harg3 : arg3.IsWhole) (arg4 : Memref sig .tc .vmem S1x8x1024 .f32) (harg4 : arg4.IsWhole)
    (hc0 : ¬cond0 i) (hc1 : ¬cond1 i) (hc2 : ¬cond2 i)
    (x0 : Vec F S7168x1024 .bf16) (xo1 : Vec F S1x8x1024 .f32) (xo2 : Vec F S1x8x1024 .f32) :
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0 ∗ owns (c : Thread nD τ) arg3 fullShare (k0_pay4 x0 xo1) ∗ owns (c : Thread nD τ) arg4 fullShare xo2) -∗ K ⟨⟩))
          ⊢ wp frame (wpE (defs₀ (F := F)) Variants.none c none) E (cc0__reduce_body i arg2 harg2 arg3 harg3 arg4 harg4) K := by
    intro E K
    simp only [cc0__reduce_body_eq_skeleton]; unfold cc0__reduce_body_skel
    iintro ⟨H0, H1, H2, Hk⟩
    unfold owns
    icases H0 with ⟨%f0, %hf0, H0⟩
    icases H1 with ⟨%f1, %hf1, H1⟩
    obtain rfl := harg2.eq_unread hf0; obtain rfl := harg3.eq_unread hf1
    sl_exec (disch := first | exact hc0 | exact hc1 | exact hc2)
    sl_step
    iapply Hk
    isplitl [H0]
    · iexists _; isplitr; · ipureintro; exact harg2.read_unread _
      iexact H0
    isplitl [H1]
    · iexists _; isplitr; swap; · iexact H1
      ipureintro
      rw [read_writes_cons_whole _ _ hz3]
      simp only [View.readAt_eq_ld, harg2.read_unread, harg3.read_unread, View.ld_unit_zero (S := S1x8x1024) hz3,
        View.ld_unit_zero (S := S7168x1024) hz2]
    iexact H2

set_option maxHeartbeats 1000000 in
/-- Only the third branch (block 2): the second accumulator also loses the block's first layer. -/
theorem run_C (c : Dev nD) (i : grid0.Coords) (arg2 : Memref sig .tc .vmem S7168x1024 .bf16) (harg2 : arg2.IsWhole)
    (arg3 : Memref sig .tc .vmem S1x8x1024 .f32) (harg3 : arg3.IsWhole) (arg4 : Memref sig .tc .vmem S1x8x1024 .f32) (harg4 : arg4.IsWhole)
    (hc0 : ¬cond0 i) (hc1 : ¬cond1 i) (hc2 : cond2 i)
    (x0 : Vec F S7168x1024 .bf16) (xo1 : Vec F S1x8x1024 .f32) (xo2 : Vec F S1x8x1024 .f32) :
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0 ∗ owns (c : Thread nD τ) arg3 fullShare (k0_pay4 x0 xo1) ∗ owns (c : Thread nD τ) arg4 fullShare (k0_pay6 x0 xo2)) -∗ K ⟨⟩))
          ⊢ wp frame (wpE (defs₀ (F := F)) Variants.none c none) E (cc0__reduce_body i arg2 harg2 arg3 harg3 arg4 harg4) K := by
    intro E K
    simp only [cc0__reduce_body_eq_skeleton]; unfold cc0__reduce_body_skel
    iintro ⟨H0, H1, H2, Hk⟩
    unfold owns
    icases H0 with ⟨%f0, %hf0, H0⟩
    icases H1 with ⟨%f1, %hf1, H1⟩
    icases H2 with ⟨%f2, %hf2, H2⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; swap; · iexact H1
      ipureintro
      rw [read_writes_cons_whole _ _ hz3]
      simp only [View.readAt_eq_ld, harg2.read_unread, harg3.read_unread, View.ld_unit_zero (S := S1x8x1024) hz3,
        View.ld_unit_zero (S := S7168x1024) hz2]
    iexists _; isplitr; swap; · iexact H2
    ipureintro
    rw [read_writes_cons_whole _ _ hz3]
    simp only [View.readAt_eq_ld, harg2.read_unread, harg4.read_unread, View.ld_unit_zero (S := S1x8x1024) hz3,
      View.ld_unit_zero (S := S7168x1024) hz2]

set_option maxHeartbeats 1000000 in
/-- Only the first branch (the point opens half 0): both accumulators are zeroed, then the first gains the block's sums. -/
theorem run_A (c : Dev nD) (i : grid0.Coords) (arg2 : Memref sig .tc .vmem S7168x1024 .bf16) (harg2 : arg2.IsWhole)
    (arg3 : Memref sig .tc .vmem S1x8x1024 .f32) (harg3 : arg3.IsWhole) (arg4 : Memref sig .tc .vmem S1x8x1024 .f32) (harg4 : arg4.IsWhole)
    (hc0 : cond0 i) (hc1 : ¬cond1 i) (hc2 : ¬cond2 i)
    (x0 : Vec F S7168x1024 .bf16) :
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ owns (c : Thread nD τ) arg3 fullShare (k0_pay4 x0 (k0_pay1 (F := F))) ∗ owns (c : Thread nD τ) arg4 fullShare (k0_pay2 (F := F))) -∗ K ⟨⟩))
          ⊢ wp frame (wpE (defs₀ (F := F)) Variants.none c none) E (cc0__reduce_body i arg2 harg2 arg3 harg3 arg4 harg4) K := by
    intro E K
    simp only [cc0__reduce_body_eq_skeleton]; unfold cc0__reduce_body_skel
    unfold owns
    iintro ⟨⟨%f0, %hf0, H0⟩, ⟨%d1, %f1, -, H1⟩, ⟨%d2, %f2, -, H2⟩, Hk⟩
    obtain rfl := harg2.eq_unread hf0
    sl_exec (disch := first | exact hc0 | exact hc1 | exact hc2)
    sl_step
    iapply Hk
    isplitl [H0]
    · iexists _; isplitr; · ipureintro; exact harg2.read_unread _
      iexact H0
    isplitl [H1]
    · iexists _; isplitr; swap; · iexact H1
      ipureintro
      (try sl_unfold_words)
      rw [read_writes_cons_whole _ _ hz3]
      simp only [View.readAt_eq_ld, harg2.read_unread, View.ld_unit_zero (S := S1x8x1024) hz3,
        View.ld_unit_zero (S := S7168x1024) hz2, View.readCov_unit_zero (S := S1x8x1024) _ hz3]
    iexists _; isplitr; swap; · iexact H2
    ipureintro
    rw [read_writes_cons_whole _ _ hz3]

set_option maxHeartbeats 1000000 in
/-- The first and second branches (block 7 opens half 1): both accumulators are zeroed, the first gains the block's sums
    and the second the block's first layer. -/
theorem run_D (c : Dev nD) (i : grid0.Coords) (arg2 : Memref sig .tc .vmem S7168x1024 .bf16) (harg2 : arg2.IsWhole)
    (arg3 : Memref sig .tc .vmem S1x8x1024 .f32) (harg3 : arg3.IsWhole) (arg4 : Memref sig .tc .vmem S1x8x1024 .f32) (harg4 : arg4.IsWhole)
    (hc0 : cond0 i) (hc1 : cond1 i) (hc2 : ¬cond2 i)
    (x0 : Vec F S7168x1024 .bf16) :
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ owns (c : Thread nD τ) arg3 fullShare (k0_pay4 x0 (k0_pay1 (F := F))) ∗ owns (c : Thread nD τ) arg4 fullShare (k0_pay5 x0 (k0_pay2 (F := F)))) -∗ K ⟨⟩))
          ⊢ wp frame (wpE (defs₀ (F := F)) Variants.none c none) E (cc0__reduce_body i arg2 harg2 arg3 harg3 arg4 harg4) K := by
    intro E K
    simp only [cc0__reduce_body_eq_skeleton]; unfold cc0__reduce_body_skel
    unfold owns
    iintro ⟨⟨%f0, %hf0, H0⟩, ⟨%d1, %f1, -, H1⟩, ⟨%d2, %f2, -, H2⟩, Hk⟩
    obtain rfl := harg2.eq_unread hf0
    sl_exec (disch := first | exact hc0 | exact hc1 | exact hc2)
    sl_step
    iapply Hk
    isplitl [H0]
    · iexists _; isplitr; · ipureintro; exact harg2.read_unread _
      iexact H0
    isplitl [H1]
    · iexists _; isplitr; swap; · iexact H1
      ipureintro
      (try sl_unfold_words)
      rw [read_writes_cons_whole _ _ hz3]
      simp only [View.readAt_eq_ld, harg2.read_unread, View.ld_unit_zero (S := S1x8x1024) hz3,
        View.ld_unit_zero (S := S7168x1024) hz2, View.readCov_unit_zero (S := S1x8x1024) _ hz3]
    iexists _; isplitr; swap; · iexact H2
    ipureintro
    (try sl_unfold_words)
    rw [read_writes_cons_whole _ _ hz3]
    simp only [View.readAt_eq_ld, harg2.read_unread, View.ld_unit_zero (S := S1x8x1024) hz3,
      View.ld_unit_zero (S := S7168x1024) hz2, View.readCov_unit_zero (S := S1x8x1024) _ hz3]

end Cert.KernelIdeal.Body

end
-- ==== Proof.KBody.lean ====
/-
  The kernel's frame. The proof data says what the two accumulators hold after each grid point: the first gains each
  block's per-residue row sums and is zeroed when a half opens; the second is zeroed when a half opens, gains the
  first layer of block 7 and loses the first layer of block 2, and is otherwise carried unchanged — also through the
  point that writes it back, which therefore writes the carried contents. With the body's four cases this gives the
  body obligation at every point, and the library's frame run around the region.
-/
import proofs.«156739_g2000006290178658_pallasbulk_805_4_alg».proof.Proof.KRun

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the idle points, over the fourteen grid points -/

/-- A half opens at points 0 and 7. -/
theorem hcond0 : ∀ t : Fin cfg0.N, cond0 (grid0.coords t) ↔ t.val % 7 = 0 :=
  (by decide +kernel : ∀ t : Fin grid0.N, cond0 (grid0.coords t) ↔ t.val % 7 = 0)
/-- Block 7 is point 7. -/
theorem hcond1 : ∀ t : Fin cfg0.N, cond1 (grid0.coords t) ↔ t.val % 14 = 7 :=
  (by decide +kernel : ∀ t : Fin grid0.N, cond1 (grid0.coords t) ↔ t.val % 14 = 7)
/-- Block 2 is point 2. -/
theorem hcond2 : ∀ t : Fin cfg0.N, cond2 (grid0.coords t) ↔ t.val % 14 = 2 :=
  (by decide +kernel : ∀ t : Fin grid0.N, cond2 (grid0.coords t) ↔ t.val % 14 = 2)

/-- The block and the first accumulator are touched at every point. -/
theorem live0 : ∀ t : Fin cfg0.N, cfg0.idle 0 (grid0.coords t) = false := by decide +kernel
theorem live1 : ∀ t : Fin cfg0.N, cfg0.idle 1 (grid0.coords t) = false := by decide +kernel
/-- The second accumulator is touched exactly at points 0, 2 and 7. -/
theorem idle2_true : ∀ t : Fin cfg0.N, ¬t.val % 7 = 0 → ¬t.val % 14 = 2 → cfg0.idle 2 (grid0.coords t) = true :=
  (by decide +kernel : ∀ t : Fin grid0.N, ¬t.val % 7 = 0 → ¬t.val % 14 = 2 → cfg0.idle 2 (grid0.coords t) = true)
theorem idle2_false : ∀ t : Fin cfg0.N, (t.val % 7 = 0 ∨ t.val % 14 = 2) → cfg0.idle 2 (grid0.coords t) = false :=
  (by decide +kernel : ∀ t : Fin grid0.N, (t.val % 7 = 0 ∨ t.val % 14 = 2) → cfg0.idle 2 (grid0.coords t) = false)

/-- Each window's current staging memref at point `t`, and its wholeness. -/
abbrev ms0_0 (t : Fin cfg0.N) : Memref sig .tc .vmem S7168x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x1024 .f32 := win0_2.stage (cfg0.slots t 2)
abbrev hs0_2 (t : Fin cfg0.N) : (ms0_2 t).IsWhole := hstage0_2 ((cfg0.slots t 2).cast nbuf0_2)

/-! ## What the accumulators hold after each point -/

/-- The two accumulators after the body at position `n`, by recursion on the position. -/
def outs (c : Dev nD) : (n : ℕ) → n < cfg0.N → Vec F S1x8x1024 .f32 × Vec F S1x8x1024 .f32
  | 0, hn => (k0_pay4 (iblk m c 0 ⟨0, hn⟩) (k0_pay1 (F := F)), k0_pay2 (F := F))
  | n + 1, hn =>
    if (n + 1) % 7 = 0 then
      (k0_pay4 (iblk m c 0 ⟨n + 1, hn⟩) (k0_pay1 (F := F)), k0_pay5 (iblk m c 0 ⟨n + 1, hn⟩) (k0_pay2 (F := F)))
    else if (n + 1) % 14 = 2 then
      (k0_pay4 (iblk m c 0 ⟨n + 1, hn⟩) (outs c n (Nat.lt_of_succ_lt hn)).1, k0_pay6 (iblk m c 0 ⟨n + 1, hn⟩) (outs c n (Nat.lt_of_succ_lt hn)).2)
    else
      (k0_pay4 (iblk m c 0 ⟨n + 1, hn⟩) (outs c n (Nat.lt_of_succ_lt hn)).1, (outs c n (Nat.lt_of_succ_lt hn)).2)

/-- At point 0. -/
theorem outs_A (c : Dev nD) (t : Fin cfg0.N) (h0 : t.val % 7 = 0) (h1 : ¬t.val % 14 = 7) :
    outs m c t.val t.isLt = (k0_pay4 (iblk m c 0 t) (k0_pay1 (F := F)), k0_pay2 (F := F)) := by
  obtain ⟨n, hn⟩ := t
  have hN : n < 14 := lt_of_lt_of_eq hn (show cfg0.N = 14 from N_0)
  cases n with
  | zero => exact rfl
  | succ n => exfalso; dsimp only at h0 h1; omega

/-- At point 7. -/
theorem outs_D (c : Dev nD) (t : Fin cfg0.N) (h0 : t.val % 7 = 0) (h1 : t.val % 14 = 7) :
    outs m c t.val t.isLt = (k0_pay4 (iblk m c 0 t) (k0_pay1 (F := F)), k0_pay5 (iblk m c 0 t) (k0_pay2 (F := F))) := by
  obtain ⟨n, hn⟩ := t
  cases n with
  | zero => exfalso; dsimp only at h1; omega
  | succ n => exact (if_pos h0).trans rfl

/-- At point 2: over what point 1 left. -/
theorem outs_C (c : Dev nD) (t : Fin cfg0.N) (h0 : ¬t.val % 7 = 0) (h2 : t.val % 14 = 2) :
    outs m c t.val t.isLt
      = (k0_pay4 (iblk m c 0 t) (outs m c (t.val - 1) (Nat.lt_of_le_of_lt (Nat.sub_le _ _) t.isLt)).1,
         k0_pay6 (iblk m c 0 t) (outs m c (t.val - 1) (Nat.lt_of_le_of_lt (Nat.sub_le _ _) t.isLt)).2) := by
  obtain ⟨n, hn⟩ := t
  cases n with
  | zero => exfalso; dsimp only at h2; omega
  | succ n => exact ((if_neg h0).trans (if_pos h2)).trans rfl

/-- At every other point: the first accumulator over what the point before left, the second carried. -/
theorem outs_B (c : Dev nD) (t : Fin cfg0.N) (h0 : ¬t.val % 7 = 0) (h2 : ¬t.val % 14 = 2) :
    outs m c t.val t.isLt
      = (k0_pay4 (iblk m c 0 t) (outs m c (t.val - 1) (Nat.lt_of_le_of_lt (Nat.sub_le _ _) t.isLt)).1,
         (outs m c (t.val - 1) (Nat.lt_of_le_of_lt (Nat.sub_le _ _) t.isLt)).2) := by
  obtain ⟨n, hn⟩ := t
  cases n with
  | zero => exfalso; dsimp only at h0; omega
  | succ n => exact ((if_neg h0).trans (if_neg h2)).trans rfl

/-! ## The proof data -/

/-- The arrays as the region finds them; the block unchanged by the body; the accumulators at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outs m c t.val t.isLt).1
    | ⟨2, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outs m c t.val t.isLt).1 := by dsimp only [dats]
theorem after0_2 (c : Dev nD) (t : Fin cfg0.N) : (dats m 0 c).after 2 t = (outs m c t.val t.isLt).2 := by dsimp only [dats]

/-- The block's buffer holds the block at every point. -/
theorem before0_0 (c : Dev nD) (t : Fin cfg0.N) (d) : (dats m 0 c).before 0 t d = iblk m c 0 t :=
  before0_0_of m (dats m 0 c) (A_eq m c 0) (after0_0 m c) t d

/-- Inside a half the first accumulator's buffer holds what the point before left (it is written back only at a half's end). -/
theorem before0_1_kept (c : Dev nD) (t : Fin cfg0.N) (h0 : ¬t.val % 7 = 0) (d) :
    (dats m 0 c).before 1 t d = (outs m c (t.val - 1) (Nat.lt_of_le_of_lt (Nat.sub_le _ _) t.isLt)).1 := by
  have hN : t.val < 14 := lt_of_lt_of_eq t.isLt (show cfg0.N = 14 from N_0)
  rw [Dat.before_out_kept _ 1 rfl t (by omega) (Bool.eq_false_iff.mpr fun h => by have := (flush0_1 _).mp h; dsimp only at this; omega)
    (fun _ => rfl) (fun _ _ => rfl)]
  dsimp only [dats]

/-- What the second accumulator's buffer keeps across a point that does not write it back: the stated contents, whether
    the body touched it there or not. -/
theorem left0_2 (c : Dev nD) : ∀ (n : ℕ) (hn : n < cfg0.N), ¬n % 7 = 6 → ∀ d,
    (dats m 0 c).left 2 ⟨n, hn⟩ d = (outs m c n hn).2 := by
  intro n
  induction n with
  | zero =>
    intro hn _ d
    unfold Dat.left
    rw [idle2_false ⟨0, hn⟩ (Or.inl rfl)]
    dsimp only
    unfold Dat.kept
    rw [Pipeline.fill_of_clip_none (cfg := cfg0) 2 _ (fun _ => rfl) d ((dats m 0 c).after 2 ⟨0, hn⟩), Window.fill_cut]
    dsimp only [dats]
  | succ k ih =>
    intro hn h6 d
    have hN : k + 1 < 14 := lt_of_lt_of_eq hn (show cfg0.N = 14 from N_0)
    unfold Dat.left
    by_cases hi : ¬(k + 1) % 7 = 0 ∧ ¬(k + 1) % 14 = 2
    · rw [idle2_true ⟨k + 1, hn⟩ hi.1 hi.2]
      dsimp only
      rw [Dat.before_of_pos (dats m 0 c) 2 ⟨k + 1, hn⟩ (Nat.succ_ne_zero k) ((cfg0.win 2).fetch_out rfl _) d]
      have hfl : (cfg0.win 2).flush ⟨k, Nat.lt_of_succ_lt hn⟩ = false :=
        Bool.eq_false_iff.mpr fun h => by have := (flush0_2 _).mp h; dsimp only at this; omega
      show (if (cfg0.win 2).flush ⟨k, Nat.lt_of_succ_lt hn⟩ = true then d else (dats m 0 c).left 2 ⟨k, Nat.lt_of_succ_lt hn⟩ d) = _
      rw [hfl, if_neg Bool.false_ne_true, ih (Nat.lt_of_succ_lt hn) (by omega) d]
      exact (congrArg Prod.snd (outs_B m c ⟨k + 1, hn⟩ hi.1 hi.2)).symm
    · rw [idle2_false ⟨k + 1, hn⟩ (by dsimp only; omega)]
      dsimp only
      unfold Dat.kept
      rw [Pipeline.fill_of_clip_none (cfg := cfg0) 2 _ (fun _ => rfl) d ((dats m 0 c).after 2 ⟨k + 1, hn⟩), Window.fill_cut]
      dsimp only [dats]

/-- Inside a half the second accumulator's buffer holds the stated contents of the point before. -/
theorem before0_2_kept (c : Dev nD) (t : Fin cfg0.N) (h0 : ¬t.val % 7 = 0) (d) :
    (dats m 0 c).before 2 t d = (outs m c (t.val - 1) (Nat.lt_of_le_of_lt (Nat.sub_le _ _) t.isLt)).2 := by
  have hN : t.val < 14 := lt_of_lt_of_eq t.isLt (show cfg0.N = 14 from N_0)
  rw [Dat.before_of_pos (dats m 0 c) 2 t (by omega) ((cfg0.win 2).fetch_out rfl _) d,
    show (cfg0.win 2).flush ⟨t.val - 1, Nat.lt_of_le_of_lt (Nat.sub_le _ _) t.isLt⟩ = false from
      Bool.eq_false_iff.mpr fun h => by have := (flush0_2 _).mp h; dsimp only at this; omega,
    if_neg Bool.false_ne_true]
  exact left0_2 m c (t.val - 1) _ (by omega) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0_0 t) fullShare (iblk m c 0 t) := by
  unfold Dat.leavesExact; rw [live0 t, after0_0]
theorem leaves1 (c : Dev nD) (t : Fin cfg0.N) :
    (dats m 0 c).leavesExact 1 t = owns (c : Thread nD τ) (ms0_1 t) fullShare (outs m c t.val t.isLt).1 := by
  unfold Dat.leavesExact; rw [live1 t, after0_1]
theorem leaves2_live (c : Dev nD) (t : Fin cfg0.N) (h : t.val % 7 = 0 ∨ t.val % 14 = 2) :
    (dats m 0 c).leavesExact 2 t = owns (c : Thread nD τ) (ms0_2 t) fullShare (outs m c t.val t.isLt).2 := by
  unfold Dat.leavesExact; rw [idle2_false t h, after0_2]
theorem leaves2_idle_flush (c : Dev nD) (t : Fin cfg0.N) (h0 : ¬t.val % 7 = 0) (h2 : ¬t.val % 14 = 2) (h6 : t.val % 7 = 6) :
    (dats m 0 c).leavesExact 2 t = owns (c : Thread nD τ) (ms0_2 t) fullShare (outs m c t.val t.isLt).2 := by
  unfold Dat.leavesExact; rw [idle2_true t h0 h2, (flush0_2 t).mpr h6, after0_2]
theorem leaves2_idle_keep (c : Dev nD) (t : Fin cfg0.N) (h0 : ¬t.val % 7 = 0) (h2 : ¬t.val % 14 = 2) (h6 : ¬t.val % 7 = 6) :
    (dats m 0 c).leavesExact 2 t = iprop(∃ d, owns (c : Thread nD τ) (ms0_2 t) fullShare ((dats m 0 c).before 2 t d)) :=
  Dat.leavesExact_idle _ 2 t (idle2_true t h0 h2) (Bool.eq_false_iff.mpr fun h => h6 ((flush0_2 t).mp h))

set_option maxHeartbeats 1600000 in
/-- The body at any point: its case by the closed forms; an accumulator it reads holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    leaves0, leaves1]
  have hN : t.val < 14 := lt_of_lt_of_eq t.isLt (show cfg0.N = 14 from N_0)
  by_cases h0 : t.val % 7 = 0
  · rw [leaves2_live m c t (Or.inl h0)]
    by_cases h1 : t.val % 14 = 7
    · have h2 : ¬t.val % 14 = 2 := by omega
      rw [outs_D m c t h0 h1]
      iintro ⟨HΦ, Ho, ⟨%d0, H0⟩, ⟨%d1, H1⟩, ⟨%d2, H2⟩⟩
      iapply (run_D c (grid0.coords t) _ _ _ _ _ _ ((hcond0 t).mpr h0) ((hcond1 t).mpr h1) (fun h => h2 ((hcond2 t).mp h)) (iblk m c 0 t) Set.univ _)
      isplitl [H0]; · iexact H0
      isplitl [H1]; · iexists _; iexact H1
      isplitl [H2]; · iexists _; iexact H2
      iintro ⟨H0, H1, H2⟩
      isplitl [HΦ]; · iexact HΦ
      isplitl [Ho]; · iexact Ho
      isplitl [H0]; · iexact H0
      isplitl [H1]; · iexact H1
      iexact H2
    · have h2 : ¬t.val % 14 = 2 := by omega
      rw [outs_A m c t h0 h1]
      iintro ⟨HΦ, Ho, ⟨%d0, H0⟩, ⟨%d1, H1⟩, ⟨%d2, H2⟩⟩
      iapply (run_A c (grid0.coords t) _ _ _ _ _ _ ((hcond0 t).mpr h0) (fun h => h1 ((hcond1 t).mp h)) (fun h => h2 ((hcond2 t).mp h)) (iblk m c 0 t) Set.univ _)
      isplitl [H0]; · iexact H0
      isplitl [H1]; · iexists _; iexact H1
      isplitl [H2]; · iexists _; iexact H2
      iintro ⟨H0, H1, H2⟩
      isplitl [HΦ]; · iexact HΦ
      isplitl [Ho]; · iexact Ho
      isplitl [H0]; · iexact H0
      isplitl [H1]; · iexact H1
      iexact H2
  · have h1 : ¬t.val % 14 = 7 := by omega
    simp only [before0_1_kept m c t h0, before0_2_kept m c t h0]
    by_cases h2 : t.val % 14 = 2
    · rw [leaves2_live m c t (Or.inr h2), outs_C m c t h0 h2]
      iintro ⟨HΦ, Ho, ⟨%d0, H0⟩, ⟨%d1, H1⟩, ⟨%d2, H2⟩⟩
      iapply (run_C c (grid0.coords t) _ _ _ _ _ _ (fun h => h0 ((hcond0 t).mp h)) (fun h => h1 ((hcond1 t).mp h)) ((hcond2 t).mpr h2) (iblk m c 0 t) _ _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · by_cases h6 : t.val % 7 = 6
      · rw [leaves2_idle_flush m c t h0 h2 h6, outs_B m c t h0 h2]
        iintro ⟨HΦ, Ho, ⟨%d0, H0⟩, ⟨%d1, H1⟩, ⟨%d2, H2⟩⟩
        iapply (run_B c (grid0.coords t) _ _ _ _ _ _ (fun h => h0 ((hcond0 t).mp h)) (fun h => h1 ((hcond1 t).mp h)) (fun h => h2 ((hcond2 t).mp h)) (iblk m c 0 t) _ _ Set.univ _)
        isplitl [H0]; · iexact H0
        isplitl [H1]; · iexact H1
        isplitl [H2]; · iexact H2
        iintro ⟨H0, H1, H2⟩
        isplitl [HΦ]; · iexact HΦ
        isplitl [Ho]; · iexact Ho
        isplitl [H0]; · iexact H0
        isplitl [H1]; · iexact H1
        iexact H2
      · rw [leaves2_idle_keep m c t h0 h2 h6, outs_B m c t h0 h2]
        simp only [before0_2_kept m c t h0]
        iintro ⟨HΦ, Ho, ⟨%d0, H0⟩, ⟨%d1, H1⟩, ⟨%d2, H2⟩⟩
        iapply (run_B c (grid0.coords t) _ _ _ _ _ _ (fun h => h0 ((hcond0 t).mp h)) (fun h => h1 ((hcond1 t).mp h)) (fun h => h2 ((hcond2 t).mp h)) (iblk m c 0 t) _ _ Set.univ _)
        isplitl [H0]; · iexact H0
        isplitl [H1]; · iexact H1
        isplitl [H2]; · iexact H2
        iintro ⟨H0, H1, H2⟩
        isplitl [HΦ]; · iexact HΦ
        isplitl [Ho]; · iexact Ho
        isplitl [H0]; · iexact H0
        isplitl [H1]; · iexact H1
        iexists d2; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; the two accumulator arrays end at what the proof data's
    write-backs leave, every other unscoped buffer at what the host operations after the region compute from them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.KBRun.lean ====
/-
  The kernel body at one grid point, in each of the four combinations of its three branches that the grid meets.
  The body adds the block's per-residue row sums (both layers) to the first accumulator, after zeroing both
  accumulators when the point opens a half; and it adds (block 7) or subtracts (block 2) the block's first layer to or from
  the second accumulator. Each lemma says: from the block and the accumulators at given contents the body runs and
  leaves the block as it was and the accumulators at the stated pure functions of those contents.
-/
import proofs.«156739_g2000006290178658_pallasbulk_805_4_alg».proof.Proof.Gen.Kernel.Skeleton
import proofs.«156739_g2000006290178658_pallasbulk_805_4_alg».proof.Proof.Gen.Kernel.Frame
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The three branch conditions, as propositions over the grid point. -/
abbrev cond0 (i : grid0.Coords) : Prop := k0_cond1 i = 1#1
abbrev cond1 (i : grid0.Coords) : Prop := k0_cond2 i = 1#1
abbrev cond2 (i : grid0.Coords) : Prop := k0_cond3 i = 1#1

theorem hz2 : (![0, 0] : Fin 2 → Nat) = fun _ => 0 := by funext a; fin_cases a <;> rfl
theorem hz3 : (![0, 0, 0] : Fin 3 → Nat) = fun _ => 0 := by funext a; fin_cases a <;> rfl

/-- Reading a buffer back after a list of writes whose last one covers the whole buffer gives that write's payload. -/
theorem read_writes_cons_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., View.mem_set_unit_zero h inb y⟩),
    View.canon_cons_unit_zero h]

set_option maxHeartbeats 1000000 in
/-- No branch taken: the first accumulator gains the block's sums, the second is untouched. -/
theorem run_B (c : Dev nD) (i : grid0.Coords) (arg2 : Memref sig .tc .vmem S7168x1024 .bf16) (harg2 : arg2.IsWhole)
    (arg3 : Memref sig .tc .vmem S1x8x1024 .f32) (harg3 : arg3.IsWhole) (arg4 : Memref sig .tc .vmem S1x8x1024 .f32) (harg4 : arg4.IsWhole)
    (hc0 : ¬cond0 i) (hc1 : ¬cond1 i) (hc2 : ¬cond2 i)
    (x0 : Vec F S7168x1024 .bf16) (xo1 : Vec F S1x8x1024 .f32) (xo2 : Vec F S1x8x1024 .f32) :
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0 ∗ owns (c : Thread nD τ) arg3 fullShare (k0_pay4 x0 xo1) ∗ owns (c : Thread nD τ) arg4 fullShare xo2) -∗ K ⟨⟩))
          ⊢ wp frame (wpE (defs₀ (F := F)) Variants.none c none) E (cc0__reduce_body i arg2 harg2 arg3 harg3 arg4 harg4) K := by
    intro E K
    simp only [cc0__reduce_body_eq_skeleton]; unfold cc0__reduce_body_skel
    iintro ⟨H0, H1, H2, Hk⟩
    unfold owns
    icases H0 with ⟨%f0, %hf0, H0⟩
    icases H1 with ⟨%f1, %hf1, H1⟩
    obtain rfl := harg2.eq_unread hf0; obtain rfl := harg3.eq_unread hf1
    sl_exec (disch := first | exact hc0 | exact hc1 | exact hc2)
    sl_step
    iapply Hk
    isplitl [H0]
    · iexists _; isplitr; · ipureintro; exact harg2.read_unread _
      iexact H0
    isplitl [H1]
    · iexists _; isplitr; swap; · iexact H1
      ipureintro
      rw [read_writes_cons_whole _ _ hz3]
      simp only [View.readAt_eq_ld, harg2.read_unread, harg3.read_unread, View.ld_unit_zero (S := S1x8x1024) hz3,
        View.ld_unit_zero (S := S7168x1024) hz2]
    iexact H2

set_option maxHeartbeats 1000000 in
/-- Only the third branch (block 2): the second accumulator also loses the block's first layer. -/
theorem run_C (c : Dev nD) (i : grid0.Coords) (arg2 : Memref sig .tc .vmem S7168x1024 .bf16) (harg2 : arg2.IsWhole)
    (arg3 : Memref sig .tc .vmem S1x8x1024 .f32) (harg3 : arg3.IsWhole) (arg4 : Memref sig .tc .vmem S1x8x1024 .f32) (harg4 : arg4.IsWhole)
    (hc0 : ¬cond0 i) (hc1 : ¬cond1 i) (hc2 : cond2 i)
    (x0 : Vec F S7168x1024 .bf16) (xo1 : Vec F S1x8x1024 .f32) (xo2 : Vec F S1x8x1024 .f32) :
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0 ∗ owns (c : Thread nD τ) arg3 fullShare (k0_pay4 x0 xo1) ∗ owns (c : Thread nD τ) arg4 fullShare (k0_pay6 x0 xo2)) -∗ K ⟨⟩))
          ⊢ wp frame (wpE (defs₀ (F := F)) Variants.none c none) E (cc0__reduce_body i arg2 harg2 arg3 harg3 arg4 harg4) K := by
    intro E K
    simp only [cc0__reduce_body_eq_skeleton]; unfold cc0__reduce_body_skel
    iintro ⟨H0, H1, H2, Hk⟩
    unfold owns
    icases H0 with ⟨%f0, %hf0, H0⟩
    icases H1 with ⟨%f1, %hf1, H1⟩
    icases H2 with ⟨%f2, %hf2, H2⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; swap; · iexact H1
      ipureintro
      rw [read_writes_cons_whole _ _ hz3]
      simp only [View.readAt_eq_ld, harg2.read_unread, harg3.read_unread, View.ld_unit_zero (S := S1x8x1024) hz3,
        View.ld_unit_zero (S := S7168x1024) hz2]
    iexists _; isplitr; swap; · iexact H2
    ipureintro
    rw [read_writes_cons_whole _ _ hz3]
    simp only [View.readAt_eq_ld, harg2.read_unread, harg4.read_unread, View.ld_unit_zero (S := S1x8x1024) hz3,
      View.ld_unit_zero (S := S7168x1024) hz2]

set_option maxHeartbeats 1000000 in
/-- Only the first branch (the point opens half 0): both accumulators are zeroed, then the first gains the block's sums. -/
theorem run_A (c : Dev nD) (i : grid0.Coords) (arg2 : Memref sig .tc .vmem S7168x1024 .bf16) (harg2 : arg2.IsWhole)
    (arg3 : Memref sig .tc .vmem S1x8x1024 .f32) (harg3 : arg3.IsWhole) (arg4 : Memref sig .tc .vmem S1x8x1024 .f32) (harg4 : arg4.IsWhole)
    (hc0 : cond0 i) (hc1 : ¬cond1 i) (hc2 : ¬cond2 i)
    (x0 : Vec F S7168x1024 .bf16) :
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ owns (c : Thread nD τ) arg3 fullShare (k0_pay4 x0 (k0_pay1 (F := F))) ∗ owns (c : Thread nD τ) arg4 fullShare (k0_pay2 (F := F))) -∗ K ⟨⟩))
          ⊢ wp frame (wpE (defs₀ (F := F)) Variants.none c none) E (cc0__reduce_body i arg2 harg2 arg3 harg3 arg4 harg4) K := by
    intro E K
    simp only [cc0__reduce_body_eq_skeleton]; unfold cc0__reduce_body_skel
    unfold owns
    iintro ⟨⟨%f0, %hf0, H0⟩, ⟨%d1, %f1, -, H1⟩, ⟨%d2, %f2, -, H2⟩, Hk⟩
    obtain rfl := harg2.eq_unread hf0
    sl_exec (disch := first | exact hc0 | exact hc1 | exact hc2)
    sl_step
    iapply Hk
    isplitl [H0]
    · iexists _; isplitr; · ipureintro; exact harg2.read_unread _
      iexact H0
    isplitl [H1]
    · iexists _; isplitr; swap; · iexact H1
      ipureintro
      (try sl_unfold_words)
      rw [read_writes_cons_whole _ _ hz3]
      simp only [View.readAt_eq_ld, harg2.read_unread, View.ld_unit_zero (S := S1x8x1024) hz3,
        View.ld_unit_zero (S := S7168x1024) hz2, View.readCov_unit_zero (S := S1x8x1024) _ hz3]
    iexists _; isplitr; swap; · iexact H2
    ipureintro
    rw [read_writes_cons_whole _ _ hz3]

set_option maxHeartbeats 1000000 in
/-- The first and second branches (block 7 opens half 1): both accumulators are zeroed, the first gains the block's sums
    and the second the block's first layer. -/
theorem run_D (c : Dev nD) (i : grid0.Coords) (arg2 : Memref sig .tc .vmem S7168x1024 .bf16) (harg2 : arg2.IsWhole)
    (arg3 : Memref sig .tc .vmem S1x8x1024 .f32) (harg3 : arg3.IsWhole) (arg4 : Memref sig .tc .vmem S1x8x1024 .f32) (harg4 : arg4.IsWhole)
    (hc0 : cond0 i) (hc1 : cond1 i) (hc2 : ¬cond2 i)
    (x0 : Vec F S7168x1024 .bf16) :
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ owns (c : Thread nD τ) arg3 fullShare (k0_pay4 x0 (k0_pay1 (F := F))) ∗ owns (c : Thread nD τ) arg4 fullShare (k0_pay5 x0 (k0_pay2 (F := F)))) -∗ K ⟨⟩))
          ⊢ wp frame (wpE (defs₀ (F := F)) Variants.none c none) E (cc0__reduce_body i arg2 harg2 arg3 harg3 arg4 harg4) K := by
    intro E K
    simp only [cc0__reduce_body_eq_skeleton]; unfold cc0__reduce_body_skel
    unfold owns
    iintro ⟨⟨%f0, %hf0, H0⟩, ⟨%d1, %f1, -, H1⟩, ⟨%d2, %f2, -, H2⟩, Hk⟩
    obtain rfl := harg2.eq_unread hf0
    sl_exec (disch := first | exact hc0 | exact hc1 | exact hc2)
    sl_step
    iapply Hk
    isplitl [H0]
    · iexists _; isplitr; · ipureintro; exact harg2.read_unread _
      iexact H0
    isplitl [H1]
    · iexists _; isplitr; swap; · iexact H1
      ipureintro
      (try sl_unfold_words)
      rw [read_writes_cons_whole _ _ hz3]
      simp only [View.readAt_eq_ld, harg2.read_unread, View.ld_unit_zero (S := S1x8x1024) hz3,
        View.ld_unit_zero (S := S7168x1024) hz2, View.readCov_unit_zero (S := S1x8x1024) _ hz3]
    iexists _; isplitr; swap; · iexact H2
    ipureintro
    (try sl_unfold_words)
    rw [read_writes_cons_whole _ _ hz3]
    simp only [View.readAt_eq_ld, harg2.read_unread, View.ld_unit_zero (S := S1x8x1024) hz3,
      View.ld_unit_zero (S := S7168x1024) hz2, View.readCov_unit_zero (S := S1x8x1024) _ hz3]

end Cert.Kernel.Body

end
-- ==== Proof.KBBody.lean ====
/-
  The kernel's frame. The proof data says what the two accumulators hold after each grid point: the first gains each
  block's per-residue row sums and is zeroed when a half opens; the second is zeroed when a half opens, gains the
  first layer of block 7 and loses the first layer of block 2, and is otherwise carried unchanged — also through the
  point that writes it back, which therefore writes the carried contents. With the body's four cases this gives the
  body obligation at every point, and the library's frame run around the region.
-/
import proofs.«156739_g2000006290178658_pallasbulk_805_4_alg».proof.Proof.KBRun

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the idle points, over the fourteen grid points -/

/-- A half opens at points 0 and 7. -/
theorem hcond0 : ∀ t : Fin cfg0.N, cond0 (grid0.coords t) ↔ t.val % 7 = 0 :=
  (by decide +kernel : ∀ t : Fin grid0.N, cond0 (grid0.coords t) ↔ t.val % 7 = 0)
/-- Block 7 is point 7. -/
theorem hcond1 : ∀ t : Fin cfg0.N, cond1 (grid0.coords t) ↔ t.val % 14 = 7 :=
  (by decide +kernel : ∀ t : Fin grid0.N, cond1 (grid0.coords t) ↔ t.val % 14 = 7)
/-- Block 2 is point 2. -/
theorem hcond2 : ∀ t : Fin cfg0.N, cond2 (grid0.coords t) ↔ t.val % 14 = 2 :=
  (by decide +kernel : ∀ t : Fin grid0.N, cond2 (grid0.coords t) ↔ t.val % 14 = 2)

/-- The block and the first accumulator are touched at every point. -/
theorem live0 : ∀ t : Fin cfg0.N, cfg0.idle 0 (grid0.coords t) = false := by decide +kernel
theorem live1 : ∀ t : Fin cfg0.N, cfg0.idle 1 (grid0.coords t) = false := by decide +kernel
/-- The second accumulator is touched exactly at points 0, 2 and 7. -/
theorem idle2_true : ∀ t : Fin cfg0.N, ¬t.val % 7 = 0 → ¬t.val % 14 = 2 → cfg0.idle 2 (grid0.coords t) = true :=
  (by decide +kernel : ∀ t : Fin grid0.N, ¬t.val % 7 = 0 → ¬t.val % 14 = 2 → cfg0.idle 2 (grid0.coords t) = true)
theorem idle2_false : ∀ t : Fin cfg0.N, (t.val % 7 = 0 ∨ t.val % 14 = 2) → cfg0.idle 2 (grid0.coords t) = false :=
  (by decide +kernel : ∀ t : Fin grid0.N, (t.val % 7 = 0 ∨ t.val % 14 = 2) → cfg0.idle 2 (grid0.coords t) = false)

/-- Each window's current staging memref at point `t`, and its wholeness. -/
abbrev ms0_0 (t : Fin cfg0.N) : Memref sig .tc .vmem S7168x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x1024 .f32 := win0_2.stage (cfg0.slots t 2)
abbrev hs0_2 (t : Fin cfg0.N) : (ms0_2 t).IsWhole := hstage0_2 ((cfg0.slots t 2).cast nbuf0_2)

/-! ## What the accumulators hold after each point -/

/-- The two accumulators after the body at position `n`, by recursion on the position. -/
def outs (c : Dev nD) : (n : ℕ) → n < cfg0.N → Vec F S1x8x1024 .f32 × Vec F S1x8x1024 .f32
  | 0, hn => (k0_pay4 (iblk m c 0 ⟨0, hn⟩) (k0_pay1 (F := F)), k0_pay2 (F := F))
  | n + 1, hn =>
    if (n + 1) % 7 = 0 then
      (k0_pay4 (iblk m c 0 ⟨n + 1, hn⟩) (k0_pay1 (F := F)), k0_pay5 (iblk m c 0 ⟨n + 1, hn⟩) (k0_pay2 (F := F)))
    else if (n + 1) % 14 = 2 then
      (k0_pay4 (iblk m c 0 ⟨n + 1, hn⟩) (outs c n (Nat.lt_of_succ_lt hn)).1, k0_pay6 (iblk m c 0 ⟨n + 1, hn⟩) (outs c n (Nat.lt_of_succ_lt hn)).2)
    else
      (k0_pay4 (iblk m c 0 ⟨n + 1, hn⟩) (outs c n (Nat.lt_of_succ_lt hn)).1, (outs c n (Nat.lt_of_succ_lt hn)).2)

/-- At point 0. -/
theorem outs_A (c : Dev nD) (t : Fin cfg0.N) (h0 : t.val % 7 = 0) (h1 : ¬t.val % 14 = 7) :
    outs m c t.val t.isLt = (k0_pay4 (iblk m c 0 t) (k0_pay1 (F := F)), k0_pay2 (F := F)) := by
  obtain ⟨n, hn⟩ := t
  have hN : n < 14 := lt_of_lt_of_eq hn (show cfg0.N = 14 from N_0)
  cases n with
  | zero => exact rfl
  | succ n => exfalso; dsimp only at h0 h1; omega

/-- At point 7. -/
theorem outs_D (c : Dev nD) (t : Fin cfg0.N) (h0 : t.val % 7 = 0) (h1 : t.val % 14 = 7) :
    outs m c t.val t.isLt = (k0_pay4 (iblk m c 0 t) (k0_pay1 (F := F)), k0_pay5 (iblk m c 0 t) (k0_pay2 (F := F))) := by
  obtain ⟨n, hn⟩ := t
  cases n with
  | zero => exfalso; dsimp only at h1; omega
  | succ n => exact (if_pos h0).trans rfl

/-- At point 2: over what point 1 left. -/
theorem outs_C (c : Dev nD) (t : Fin cfg0.N) (h0 : ¬t.val % 7 = 0) (h2 : t.val % 14 = 2) :
    outs m c t.val t.isLt
      = (k0_pay4 (iblk m c 0 t) (outs m c (t.val - 1) (Nat.lt_of_le_of_lt (Nat.sub_le _ _) t.isLt)).1,
         k0_pay6 (iblk m c 0 t) (outs m c (t.val - 1) (Nat.lt_of_le_of_lt (Nat.sub_le _ _) t.isLt)).2) := by
  obtain ⟨n, hn⟩ := t
  cases n with
  | zero => exfalso; dsimp only at h2; omega
  | succ n => exact ((if_neg h0).trans (if_pos h2)).trans rfl

/-- At every other point: the first accumulator over what the point before left, the second carried. -/
theorem outs_B (c : Dev nD) (t : Fin cfg0.N) (h0 : ¬t.val % 7 = 0) (h2 : ¬t.val % 14 = 2) :
    outs m c t.val t.isLt
      = (k0_pay4 (iblk m c 0 t) (outs m c (t.val - 1) (Nat.lt_of_le_of_lt (Nat.sub_le _ _) t.isLt)).1,
         (outs m c (t.val - 1) (Nat.lt_of_le_of_lt (Nat.sub_le _ _) t.isLt)).2) := by
  obtain ⟨n, hn⟩ := t
  cases n with
  | zero => exfalso; dsimp only at h0; omega
  | succ n => exact ((if_neg h0).trans (if_neg h2)).trans rfl

/-! ## The proof data -/

/-- The arrays as the region finds them; the block unchanged by the body; the accumulators at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outs m c t.val t.isLt).1
    | ⟨2, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outs m c t.val t.isLt).1 := by dsimp only [dats]
theorem after0_2 (c : Dev nD) (t : Fin cfg0.N) : (dats m 0 c).after 2 t = (outs m c t.val t.isLt).2 := by dsimp only [dats]

/-- The block's buffer holds the block at every point. -/
theorem before0_0 (c : Dev nD) (t : Fin cfg0.N) (d) : (dats m 0 c).before 0 t d = iblk m c 0 t :=
  before0_0_of m (dats m 0 c) (A_eq m c 0) (after0_0 m c) t d

/-- Inside a half the first accumulator's buffer holds what the point before left (it is written back only at a half's end). -/
theorem before0_1_kept (c : Dev nD) (t : Fin cfg0.N) (h0 : ¬t.val % 7 = 0) (d) :
    (dats m 0 c).before 1 t d = (outs m c (t.val - 1) (Nat.lt_of_le_of_lt (Nat.sub_le _ _) t.isLt)).1 := by
  have hN : t.val < 14 := lt_of_lt_of_eq t.isLt (show cfg0.N = 14 from N_0)
  rw [Dat.before_out_kept _ 1 rfl t (by omega) (Bool.eq_false_iff.mpr fun h => by have := (flush0_1 _).mp h; dsimp only at this; omega)
    (fun _ => rfl) (fun _ _ => rfl)]
  dsimp only [dats]

/-- What the second accumulator's buffer keeps across a point that does not write it back: the stated contents, whether
    the body touched it there or not. -/
theorem left0_2 (c : Dev nD) : ∀ (n : ℕ) (hn : n < cfg0.N), ¬n % 7 = 6 → ∀ d,
    (dats m 0 c).left 2 ⟨n, hn⟩ d = (outs m c n hn).2 := by
  intro n
  induction n with
  | zero =>
    intro hn _ d
    unfold Dat.left
    rw [idle2_false ⟨0, hn⟩ (Or.inl rfl)]
    dsimp only
    unfold Dat.kept
    rw [Pipeline.fill_of_clip_none (cfg := cfg0) 2 _ (fun _ => rfl) d ((dats m 0 c).after 2 ⟨0, hn⟩), Window.fill_cut]
    dsimp only [dats]
  | succ k ih =>
    intro hn h6 d
    have hN : k + 1 < 14 := lt_of_lt_of_eq hn (show cfg0.N = 14 from N_0)
    unfold Dat.left
    by_cases hi : ¬(k + 1) % 7 = 0 ∧ ¬(k + 1) % 14 = 2
    · rw [idle2_true ⟨k + 1, hn⟩ hi.1 hi.2]
      dsimp only
      rw [Dat.before_of_pos (dats m 0 c) 2 ⟨k + 1, hn⟩ (Nat.succ_ne_zero k) ((cfg0.win 2).fetch_out rfl _) d]
      have hfl : (cfg0.win 2).flush ⟨k, Nat.lt_of_succ_lt hn⟩ = false :=
        Bool.eq_false_iff.mpr fun h => by have := (flush0_2 _).mp h; dsimp only at this; omega
      show (if (cfg0.win 2).flush ⟨k, Nat.lt_of_succ_lt hn⟩ = true then d else (dats m 0 c).left 2 ⟨k, Nat.lt_of_succ_lt hn⟩ d) = _
      rw [hfl, if_neg Bool.false_ne_true, ih (Nat.lt_of_succ_lt hn) (by omega) d]
      exact (congrArg Prod.snd (outs_B m c ⟨k + 1, hn⟩ hi.1 hi.2)).symm
    · rw [idle2_false ⟨k + 1, hn⟩ (by dsimp only; omega)]
      dsimp only
      unfold Dat.kept
      rw [Pipeline.fill_of_clip_none (cfg := cfg0) 2 _ (fun _ => rfl) d ((dats m 0 c).after 2 ⟨k + 1, hn⟩), Window.fill_cut]
      dsimp only [dats]

/-- Inside a half the second accumulator's buffer holds the stated contents of the point before. -/
theorem before0_2_kept (c : Dev nD) (t : Fin cfg0.N) (h0 : ¬t.val % 7 = 0) (d) :
    (dats m 0 c).before 2 t d = (outs m c (t.val - 1) (Nat.lt_of_le_of_lt (Nat.sub_le _ _) t.isLt)).2 := by
  have hN : t.val < 14 := lt_of_lt_of_eq t.isLt (show cfg0.N = 14 from N_0)
  rw [Dat.before_of_pos (dats m 0 c) 2 t (by omega) ((cfg0.win 2).fetch_out rfl _) d,
    show (cfg0.win 2).flush ⟨t.val - 1, Nat.lt_of_le_of_lt (Nat.sub_le _ _) t.isLt⟩ = false from
      Bool.eq_false_iff.mpr fun h => by have := (flush0_2 _).mp h; dsimp only at this; omega,
    if_neg Bool.false_ne_true]
  exact left0_2 m c (t.val - 1) _ (by omega) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0_0 t) fullShare (iblk m c 0 t) := by
  unfold Dat.leavesExact; rw [live0 t, after0_0]
theorem leaves1 (c : Dev nD) (t : Fin cfg0.N) :
    (dats m 0 c).leavesExact 1 t = owns (c : Thread nD τ) (ms0_1 t) fullShare (outs m c t.val t.isLt).1 := by
  unfold Dat.leavesExact; rw [live1 t, after0_1]
theorem leaves2_live (c : Dev nD) (t : Fin cfg0.N) (h : t.val % 7 = 0 ∨ t.val % 14 = 2) :
    (dats m 0 c).leavesExact 2 t = owns (c : Thread nD τ) (ms0_2 t) fullShare (outs m c t.val t.isLt).2 := by
  unfold Dat.leavesExact; rw [idle2_false t h, after0_2]
theorem leaves2_idle_flush (c : Dev nD) (t : Fin cfg0.N) (h0 : ¬t.val % 7 = 0) (h2 : ¬t.val % 14 = 2) (h6 : t.val % 7 = 6) :
    (dats m 0 c).leavesExact 2 t = owns (c : Thread nD τ) (ms0_2 t) fullShare (outs m c t.val t.isLt).2 := by
  unfold Dat.leavesExact; rw [idle2_true t h0 h2, (flush0_2 t).mpr h6, after0_2]
theorem leaves2_idle_keep (c : Dev nD) (t : Fin cfg0.N) (h0 : ¬t.val % 7 = 0) (h2 : ¬t.val % 14 = 2) (h6 : ¬t.val % 7 = 6) :
    (dats m 0 c).leavesExact 2 t = iprop(∃ d, owns (c : Thread nD τ) (ms0_2 t) fullShare ((dats m 0 c).before 2 t d)) :=
  Dat.leavesExact_idle _ 2 t (idle2_true t h0 h2) (Bool.eq_false_iff.mpr fun h => h6 ((flush0_2 t).mp h))

set_option maxHeartbeats 1600000 in
/-- The body at any point: its case by the closed forms; an accumulator it reads holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    leaves0, leaves1]
  have hN : t.val < 14 := lt_of_lt_of_eq t.isLt (show cfg0.N = 14 from N_0)
  by_cases h0 : t.val % 7 = 0
  · rw [leaves2_live m c t (Or.inl h0)]
    by_cases h1 : t.val % 14 = 7
    · have h2 : ¬t.val % 14 = 2 := by omega
      rw [outs_D m c t h0 h1]
      iintro ⟨HΦ, Ho, ⟨%d0, H0⟩, ⟨%d1, H1⟩, ⟨%d2, H2⟩⟩
      iapply (run_D c (grid0.coords t) _ _ _ _ _ _ ((hcond0 t).mpr h0) ((hcond1 t).mpr h1) (fun h => h2 ((hcond2 t).mp h)) (iblk m c 0 t) Set.univ _)
      isplitl [H0]; · iexact H0
      isplitl [H1]; · iexists _; iexact H1
      isplitl [H2]; · iexists _; iexact H2
      iintro ⟨H0, H1, H2⟩
      isplitl [HΦ]; · iexact HΦ
      isplitl [Ho]; · iexact Ho
      isplitl [H0]; · iexact H0
      isplitl [H1]; · iexact H1
      iexact H2
    · have h2 : ¬t.val % 14 = 2 := by omega
      rw [outs_A m c t h0 h1]
      iintro ⟨HΦ, Ho, ⟨%d0, H0⟩, ⟨%d1, H1⟩, ⟨%d2, H2⟩⟩
      iapply (run_A c (grid0.coords t) _ _ _ _ _ _ ((hcond0 t).mpr h0) (fun h => h1 ((hcond1 t).mp h)) (fun h => h2 ((hcond2 t).mp h)) (iblk m c 0 t) Set.univ _)
      isplitl [H0]; · iexact H0
      isplitl [H1]; · iexists _; iexact H1
      isplitl [H2]; · iexists _; iexact H2
      iintro ⟨H0, H1, H2⟩
      isplitl [HΦ]; · iexact HΦ
      isplitl [Ho]; · iexact Ho
      isplitl [H0]; · iexact H0
      isplitl [H1]; · iexact H1
      iexact H2
  · have h1 : ¬t.val % 14 = 7 := by omega
    simp only [before0_1_kept m c t h0, before0_2_kept m c t h0]
    by_cases h2 : t.val % 14 = 2
    · rw [leaves2_live m c t (Or.inr h2), outs_C m c t h0 h2]
      iintro ⟨HΦ, Ho, ⟨%d0, H0⟩, ⟨%d1, H1⟩, ⟨%d2, H2⟩⟩
      iapply (run_C c (grid0.coords t) _ _ _ _ _ _ (fun h => h0 ((hcond0 t).mp h)) (fun h => h1 ((hcond1 t).mp h)) ((hcond2 t).mpr h2) (iblk m c 0 t) _ _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · by_cases h6 : t.val % 7 = 6
      · rw [leaves2_idle_flush m c t h0 h2 h6, outs_B m c t h0 h2]
        iintro ⟨HΦ, Ho, ⟨%d0, H0⟩, ⟨%d1, H1⟩, ⟨%d2, H2⟩⟩
        iapply (run_B c (grid0.coords t) _ _ _ _ _ _ (fun h => h0 ((hcond0 t).mp h)) (fun h => h1 ((hcond1 t).mp h)) (fun h => h2 ((hcond2 t).mp h)) (iblk m c 0 t) _ _ Set.univ _)
        isplitl [H0]; · iexact H0
        isplitl [H1]; · iexact H1
        isplitl [H2]; · iexact H2
        iintro ⟨H0, H1, H2⟩
        isplitl [HΦ]; · iexact HΦ
        isplitl [Ho]; · iexact Ho
        isplitl [H0]; · iexact H0
        isplitl [H1]; · iexact H1
        iexact H2
      · rw [leaves2_idle_keep m c t h0 h2 h6, outs_B m c t h0 h2]
        simp only [before0_2_kept m c t h0]
        iintro ⟨HΦ, Ho, ⟨%d0, H0⟩, ⟨%d1, H1⟩, ⟨%d2, H2⟩⟩
        iapply (run_B c (grid0.coords t) _ _ _ _ _ _ (fun h => h0 ((hcond0 t).mp h)) (fun h => h1 ((hcond1 t).mp h)) (fun h => h2 ((hcond2 t).mp h)) (iblk m c 0 t) _ _ Set.univ _)
        isplitl [H0]; · iexact H0
        isplitl [H1]; · iexact H1
        isplitl [H2]; · iexact H2
        iintro ⟨H0, H1, H2⟩
        isplitl [HΦ]; · iexact HΦ
        isplitl [Ho]; · iexact Ho
        isplitl [H0]; · iexact H0
        isplitl [H1]; · iexact H1
        iexists d2; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; the two accumulator arrays end at what the proof data's
    write-backs leave, every other unscoped buffer at what the host operations after the region compute from them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.KPay.lean ====
/-
  The kernel body's arithmetic read at an index, over the extended reals. The block [7168, 1024] is regrouped as
  [2, 448, 8, 1024] (row 3584 * k + 8 * r + s); summing over the groups r leaves, per layer k and residue s, a partial sum;
  the first accumulator gains the sum of the two layers' partial sums, the second gains or loses the first layer's.
-/
import proofs.«156739_g2000006290178658_pallasbulk_805_4_alg».proof.KernelIdeal
import proofs.«156739_g2000006290178658_pallasbulk_805_4_alg».proof.Proof.Gen.KernelIdeal
import proofs.«156739_g2000006290178658_pallasbulk_805_4_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KPay

open Idealize.ShloMosaic Idealize.ShloMosaic.TcCoe Idealize.SL.Sem Idealize.ShloMosaic.ValueIdx
open Cert.KernelIdeal Cert.KernelIdeal.Gen

/-- The zero fills. -/
theorem pay1_apply (j : S1x8x1024.Idx) : (k0_pay1 (F := Ideal)) j = 0 := by
  show (Ideal.ofBits .f32 0x00000000#32 : EReal) = 0
  exact Ideal.ofBits_zero_f32
theorem pay2_apply (j : S1x8x1024.Idx) : (k0_pay2 (F := Ideal)) j = 0 := by
  show (Ideal.ofBits .f32 0x00000000#32 : EReal) = 0
  exact Ideal.ofBits_zero_f32

/-- Widening the format changes no value. -/
theorem extf_val {s : Shape} (a : FVec Ideal s .bf16) (h : FTy.bits .bf16 < FTy.bits .f32) (i : s.Idx) :
    (extf (F := Ideal) .f32 a h i : EReal) = (a i : EReal) := rfl

/-- Layer k's partial sum for residue s: over the 448 groups of eight rows. -/
theorem pay3_apply (x0 : FVec Ideal S7168x1024 .bf16) (k : Fin 2) (s : Fin 8) (v : Fin 1024) :
    (k0_pay3 (F := Ideal) x0 (ix3 k s v) : EReal)
      = ∑ r : Fin 448, (x0 (ix2 (⟨3584 * k.val + 8 * r.val + s.val, by omega⟩ : Fin 7168) v) : EReal) := by
  unfold k0_pay3
  refine (Ideal.multiReduction_add_single _ _ _ _ _ (ix3 k s v)).trans ?_
  refine Finset.sum_congr rfl fun r _ => ?_
  have hr : r.val < 448 := r.isLt
  refine (extf_val _ _ _).trans ?_
  rw [shapeCast_self]
  exact shapeCast_apply x0 _ _ (ix2 (⟨3584 * k.val + 8 * r.val + s.val, by omega⟩ : Fin 7168) v) (by
    rw [Shape.rowMajor_val_two, Shape.rowMajor_val_four]
    show (3584 * k.val + 8 * r.val + s.val) * 1024 + v.val = ((k.val * 448 + r.val) * 8 + s.val) * 1024 + v.val
    omega)

/-- The coordinates of an index of [8, 1024] with a layer inserted in front. -/
theorem lift_layer (h : S2x8x1024.Reduces [0] S8x1024) (s : Fin 8) (v : Fin 1024) (k : Fin 2) :
    h.lift (ix2 s v) k = ix3 k s v :=
  funext fun a => Fin.ext (by match a with | ⟨0, _⟩ => rfl | ⟨1, _⟩ => rfl | ⟨2, _⟩ => rfl)

/-- The first accumulator gains both layers' partial sums. -/
theorem pay4_apply (x0 : FVec Ideal S7168x1024 .bf16) (acc : FVec Ideal S1x8x1024 .f32) (s : Fin 8) (v : Fin 1024) :
    k0_pay4 (F := Ideal) x0 acc (ix3 (0 : Fin 1) s v) = acc (ix3 (0 : Fin 1) s v) + ∑ k : Fin 2, k0_pay3 (F := Ideal) x0 (ix3 k s v) := by
  unfold k0_pay4
  refine (shapeCast_ab_1ab_apply _ _ (0 : Fin 1) s v).trans ?_
  refine (addf_apply _ _ (ix2 s v)).trans ?_
  refine congrArg₂ (· + ·) (shapeCast_1ab_ab_apply acc _ s v) ?_
  refine (Ideal.multiReduction_add_single _ _ _ _ _ (ix2 s v)).trans ?_
  refine Finset.sum_congr rfl fun k _ => ?_
  exact congrArg (k0_pay3 (F := Ideal) x0) (lift_layer _ s v k)

/-- The second accumulator gains the first layer's partial sums, -/
theorem pay5_apply (x0 : FVec Ideal S7168x1024 .bf16) (acc : FVec Ideal S1x8x1024 .f32) (s : Fin 8) (v : Fin 1024) :
    k0_pay5 (F := Ideal) x0 acc (ix3 (0 : Fin 1) s v) = acc (ix3 (0 : Fin 1) s v) + k0_pay3 (F := Ideal) x0 (ix3 (0 : Fin 2) s v) := by
  unfold k0_pay5
  refine (shapeCast_ab_1ab_apply _ _ (0 : Fin 1) s v).trans ?_
  refine (addf_apply _ _ (ix2 s v)).trans ?_
  refine congrArg₂ (· + ·) (shapeCast_1ab_ab_apply acc _ s v) ?_
  refine (shapeCast_1ab_ab_apply _ _ s v).trans ?_
  exact extractStridedSlice_apply _ _ _ (ix3 (0 : Fin 1) s v) (ix3 (0 : Fin 2) s v) (fun a => by
    match a with
    | ⟨0, _⟩ => exact (Nat.zero_add _).symm
    | ⟨1, _⟩ => exact (Nat.zero_add _).symm
    | ⟨2, _⟩ => exact (Nat.zero_add _).symm)

/-- or loses them. -/
theorem pay6_apply (x0 : FVec Ideal S7168x1024 .bf16) (acc : FVec Ideal S1x8x1024 .f32) (s : Fin 8) (v : Fin 1024) :
    k0_pay6 (F := Ideal) x0 acc (ix3 (0 : Fin 1) s v) = acc (ix3 (0 : Fin 1) s v) - k0_pay3 (F := Ideal) x0 (ix3 (0 : Fin 2) s v) := by
  unfold k0_pay6
  refine (shapeCast_ab_1ab_apply _ _ (0 : Fin 1) s v).trans ?_
  refine (subf_apply _ _ (ix2 s v)).trans ?_
  refine congrArg₂ (· - ·) (shapeCast_1ab_ab_apply acc _ s v) ?_
  refine (shapeCast_1ab_ab_apply _ _ s v).trans ?_
  exact extractStridedSlice_apply _ _ _ (ix3 (0 : Fin 1) s v) (ix3 (0 : Fin 2) s v) (fun a => by
    match a with
    | ⟨0, _⟩ => exact (Nat.zero_add _).symm
    | ⟨1, _⟩ => exact (Nat.zero_add _).symm
    | ⟨2, _⟩ => exact (Nat.zero_add _).symm)

end Cert.KernelIdeal.KPay

end
-- ==== Proof.KValue.lean ====
/-
  What the kernel's region leaves in its two accumulator arrays. Block t of the row matrix is rows 7168 * t … 7168 * t + 7167;
  inside the body the block is regrouped as (layer k, group r, residue s), row 3584 * k + 8 * r + s. Over a half the first
  accumulator adds up the seven blocks' per-residue sums; the second holds minus the first layer of block 2 in half 0 and
  the first layer of block 7 in half 1. Each half's block of the arrays is written back once, at the half's last point.
-/
import proofs.«156739_g2000006290178658_pallasbulk_805_4_alg».proof.Proof.Spec
import proofs.«156739_g2000006290178658_pallasbulk_805_4_alg».proof.Proof.KBody
import proofs.«156739_g2000006290178658_pallasbulk_805_4_alg».proof.Proof.KPay
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body

variable (m : (ℓ : Loc nD τ sig) → Buf (Elt Ideal) ℓ)

/-! ## The argument as a matrix of rows, and the kernel's blocks of it -/

/-- The argument array x[l, h, q, v]. -/
abbrev xarg (c : Dev nD) : Cert.Spec.X4.Idx → EReal := m ((c : Thread nD τ).loc main_arg0)

/-- Block t of the row matrix, as the body loads it. -/
abbrev xblk (c : Dev nD) (t : Fin cfg0.N) : Vec Ideal S7168x1024 .bf16 := iblk m c 0 t

/-- The row matrix the region finds is the argument re-laid row-major: row n = 3584 * l + 128 * h + q. -/
theorem rows_eq (c : Dev nD) :
    (V m c main_v0 : S100352x1024.Idx → EReal)
      = shapeCast S100352x1024 (m ((c : Thread nD τ).loc main_arg0)) shapeCasts_S28x28x128x1024_S100352x1024 := by
  show StableHlo.after hostOps0 (fun b => m (c, b)) (Proc.devRef .tc main_v0) = _
  after_results
  rfl

/-- Row n, column v of the re-laid argument is `lay`: layer n / 3584, head n / 128 % 28, query n % 128. -/
theorem rows_apply (x : Cert.Spec.X4.Idx → EReal) (n : ℕ) (hn : n < 100352) (v : Fin 1024) :
    shapeCast S100352x1024 x shapeCasts_S28x28x128x1024_S100352x1024 (ix2 (⟨n, hn⟩ : Fin 100352) v) = Cert.Spec.lay x n v := by
  unfold Cert.Spec.lay
  rw [dif_pos hn]
  refine shapeCast_apply x shapeCasts_S28x28x128x1024_S100352x1024 _ _ ?_
  rw [Shape.rowMajor_val_two, Shape.rowMajor_val_four]
  show ((n / 3584 * 28 + n / 128 % 28) * 128 + n % 128) * 1024 + v.val = n * 1024 + v.val
  omega

/-- The block's index map: block t starts at block row t, column block 0. -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row ρ, column v of block t is row 7168 * t + ρ of the row matrix. -/
theorem xblk_apply (c : Dev nD) (n : ℕ) (hn : n < cfg0.N) (ρ : Fin 7168) (v : Fin 1024) :
    xblk m c ⟨n, hn⟩ (ix2 ρ v) = Cert.Spec.lay (xarg m c) (7168 * n + ρ.val) v := by
  have hN : n < 14 := lt_of_lt_of_eq hn (show cfg0.N = 14 from N_0)
  have hρ : ρ.val < 7168 := ρ.isLt
  have hr : 7168 * n + ρ.val < 100352 := by omega
  obtain ⟨e0, e1⟩ := idx_in ⟨n, hn⟩
  have he : ((cfg0.win 0).blk ⟨n, hn⟩).view.emb (ix2 ρ v) = (ix2 (⟨7168 * n + ρ.val, hr⟩ : Fin 100352) v : S100352x1024.Idx) := by
    funext a
    apply Fin.ext
    match a with
    | ⟨0, _⟩ =>
      show win0_0.index ⟨n, hn⟩ (0 : Fin 2) * 7168 + 1 * ρ.val = 7168 * n + ρ.val
      rw [e0]; show n * 7168 + 1 * ρ.val = 7168 * n + ρ.val; omega
    | ⟨1, _⟩ =>
      show win0_0.index ⟨n, hn⟩ (1 : Fin 2) * 1024 + 1 * v.val = v.val
      rw [e1]; omega
  show V m c main_v0 (((cfg0.win 0).blk ⟨n, hn⟩).view.emb (ix2 ρ v)) = _
  refine (congrArg (V m c main_v0) he).trans ?_
  refine (congrFun (rows_eq m c) _).trans ?_
  exact rows_apply _ _ hr v

/-! ## The body's arithmetic over the blocks, in the specification's words -/

/-- Layer k of block n, residue s: the sum over the layer's 448 groups of eight rows. -/
theorem pay3_blk (c : Dev nD) (n : ℕ) (hn : n < cfg0.N) (k : Fin 2) (s : Fin 8) (v : Fin 1024) :
    k0_pay3 (F := Ideal) (xblk m c ⟨n, hn⟩) (ix3 k s v)
      = ∑ r : Fin 448, Cert.Spec.lay (xarg m c) (7168 * n + 3584 * k.val + 8 * r.val + s.val) v := by
  refine (KPay.pay3_apply (xblk m c ⟨n, hn⟩) k s v).trans ?_
  refine Finset.sum_congr rfl fun r _ => ?_
  refine (xblk_apply m c n hn _ v).trans ?_
  refine congrArg (fun j => Cert.Spec.lay (xarg m c) j v) ?_
  show 7168 * n + (3584 * k.val + 8 * r.val + s.val) = 7168 * n + 3584 * k.val + 8 * r.val + s.val
  omega

/-- The first accumulator gains block n's per-residue sums. -/
theorem pay4_blk (c : Dev nD) (n : ℕ) (hn : n < cfg0.N) (acc : FVec Ideal S1x8x1024 .f32) (s : Fin 8) (v : Fin 1024) :
    k0_pay4 (F := Ideal) (xblk m c ⟨n, hn⟩) acc (ix3 (0 : Fin 1) s v)
      = acc (ix3 (0 : Fin 1) s v) + Cert.Spec.kPart (xarg m c) n s v := by
  refine (KPay.pay4_apply (xblk m c ⟨n, hn⟩) acc s v).trans ?_
  unfold Cert.Spec.kPart
  exact congrArg (fun z => acc (ix3 (0 : Fin 1) s v) + z) (Finset.sum_congr rfl fun k _ => pay3_blk m c n hn k s v)

/-- The first layer of block n, residue s. -/
theorem pay3_layer (c : Dev nD) (n : ℕ) (hn : n < cfg0.N) (s : Fin 8) (v : Fin 1024) :
    k0_pay3 (F := Ideal) (xblk m c ⟨n, hn⟩) (ix3 (0 : Fin 2) s v) = Cert.Spec.kLayer (xarg m c) n s v := by
  refine (pay3_blk m c n hn 0 s v).trans ?_
  unfold Cert.Spec.kLayer
  refine Finset.sum_congr rfl fun r _ => ?_
  refine congrArg (fun j => Cert.Spec.lay (xarg m c) j v) ?_
  show 7168 * n + 3584 * 0 + 8 * r.val + s.val = 7168 * n + 8 * r.val + s.val
  omega

/-- The second accumulator gains block n's first layer, -/
theorem pay5_blk (c : Dev nD) (n : ℕ) (hn : n < cfg0.N) (acc : FVec Ideal S1x8x1024 .f32) (s : Fin 8) (v : Fin 1024) :
    k0_pay5 (F := Ideal) (xblk m c ⟨n, hn⟩) acc (ix3 (0 : Fin 1) s v)
      = acc (ix3 (0 : Fin 1) s v) + Cert.Spec.kLayer (xarg m c) n s v := by
  refine (KPay.pay5_apply (xblk m c ⟨n, hn⟩) acc s v).trans ?_
  exact congrArg (fun z => acc (ix3 (0 : Fin 1) s v) + z) (pay3_layer m c n hn s v)

/-- or loses it. -/
theorem pay6_blk (c : Dev nD) (n : ℕ) (hn : n < cfg0.N) (acc : FVec Ideal S1x8x1024 .f32) (s : Fin 8) (v : Fin 1024) :
    k0_pay6 (F := Ideal) (xblk m c ⟨n, hn⟩) acc (ix3 (0 : Fin 1) s v)
      = acc (ix3 (0 : Fin 1) s v) - Cert.Spec.kLayer (xarg m c) n s v := by
  refine (KPay.pay6_apply (xblk m c ⟨n, hn⟩) acc s v).trans ?_
  exact congrArg (fun z => acc (ix3 (0 : Fin 1) s v) - z) (pay3_layer m c n hn s v)

/-! ## The running sums over a half -/

/-- At a half's first point the running sum over the half so far is that point's term. -/
theorem range_sum_reset (f : ℕ → EReal) (n : ℕ) (h : n % 7 = 0) :
    ∑ b ∈ Finset.range (n % 7 + 1), f (n - n % 7 + b) = f n := by
  rw [h, Nat.zero_add, Finset.sum_range_one, Nat.sub_zero, Nat.add_zero]

/-- At a later point it is the running sum at the point before plus that point's term. -/
theorem range_sum_step (f : ℕ → EReal) (n : ℕ) (h : ¬n % 7 = 0) :
    ∑ b ∈ Finset.range (n % 7 + 1), f (n - n % 7 + b)
      = (∑ b ∈ Finset.range ((n - 1) % 7 + 1), f (n - 1 - (n - 1) % 7 + b)) + f n := by
  have e0 : n - n % 7 = n - 1 - (n - 1) % 7 := by omega
  have e1 : n % 7 = (n - 1) % 7 + 1 := by omega
  have e2 : n - 1 - (n - 1) % 7 + ((n - 1) % 7 + 1) = n := by omega
  calc ∑ b ∈ Finset.range (n % 7 + 1), f (n - n % 7 + b)
      = ∑ b ∈ Finset.range ((n - 1) % 7 + 1 + 1), f (n - 1 - (n - 1) % 7 + b) := by rw [e0, e1]
    _ = (∑ b ∈ Finset.range ((n - 1) % 7 + 1), f (n - 1 - (n - 1) % 7 + b)) + f (n - 1 - (n - 1) % 7 + ((n - 1) % 7 + 1)) :=
        Finset.sum_range_succ _ _
    _ = (∑ b ∈ Finset.range ((n - 1) % 7 + 1), f (n - 1 - (n - 1) % 7 + b)) + f n := by rw [e2]

/-- After point n the first accumulator holds the half's blocks so far, per residue; the second holds nothing before
    point 2, minus the first layer of block 2 from there to the end of half 0, and the first layer of block 7 in half 1. -/
theorem outs_apply (c : Dev nD) : ∀ (n : ℕ) (hn : n < cfg0.N) (s : Fin 8) (v : Fin 1024),
    (outs m c n hn).1 (ix3 (0 : Fin 1) s v)
        = ∑ b ∈ Finset.range (n % 7 + 1), Cert.Spec.kPart (xarg m c) (n - n % 7 + b) s v
    ∧ (outs m c n hn).2 (ix3 (0 : Fin 1) s v)
        = (if n < 2 then 0 else if n < 7 then 0 - Cert.Spec.kLayer (xarg m c) 2 s v else 0 + Cert.Spec.kLayer (xarg m c) 7 s v) := by
  intro n
  induction n using Nat.strong_induction_on with
  | _ n ih =>
    intro hn s v
    have hN : n < 14 := lt_of_lt_of_eq hn (show cfg0.N = 14 from N_0)
    have hq : n - 1 < cfg0.N := Nat.lt_of_le_of_lt (Nat.sub_le _ _) hn
    by_cases h0 : n % 7 = 0
    · by_cases h1 : n % 14 = 7
      · rw [show outs m c n hn = _ from outs_D m c ⟨n, hn⟩ h0 h1]
        dsimp only
        constructor
        · refine (pay4_blk m c n hn _ s v).trans ?_
          rw [KPay.pay1_apply, zero_add]
          exact (range_sum_reset (fun j => Cert.Spec.kPart (xarg m c) j s v) n h0).symm
        · refine (pay5_blk m c n hn _ s v).trans ?_
          rw [KPay.pay2_apply, if_neg (show ¬n < 2 by omega), if_neg (show ¬n < 7 by omega), show n = 7 by omega]
      · rw [show outs m c n hn = _ from outs_A m c ⟨n, hn⟩ h0 h1]
        dsimp only
        constructor
        · refine (pay4_blk m c n hn _ s v).trans ?_
          rw [KPay.pay1_apply, zero_add]
          exact (range_sum_reset (fun j => Cert.Spec.kPart (xarg m c) j s v) n h0).symm
        · rw [KPay.pay2_apply, if_pos (show n < 2 by omega)]
    · obtain ⟨ih1, ih2⟩ := ih (n - 1) (by omega) hq s v
      by_cases h2 : n % 14 = 2
      · rw [show outs m c n hn = _ from outs_C m c ⟨n, hn⟩ h0 h2]
        dsimp only
        constructor
        · refine (pay4_blk m c n hn (outs m c (n - 1) hq).1 s v).trans ?_
          refine Eq.trans ?_ (range_sum_step (fun j => Cert.Spec.kPart (xarg m c) j s v) n h0).symm
          exact congrArg (fun z => z + Cert.Spec.kPart (xarg m c) n s v) ih1
        · refine (pay6_blk m c n hn (outs m c (n - 1) hq).2 s v).trans ?_
          refine (congrArg (fun z => z - Cert.Spec.kLayer (xarg m c) n s v) ih2).trans ?_
          show (if n - 1 < 2 then (0 : EReal) else _) - _ = _
          rw [if_pos (show n - 1 < 2 by omega), if_neg (show ¬n < 2 by omega), if_pos (show n < 7 by omega), show n = 2 by omega]
      · rw [show outs m c n hn = _ from outs_B m c ⟨n, hn⟩ h0 h2]
        dsimp only
        constructor
        · refine (pay4_blk m c n hn (outs m c (n - 1) hq).1 s v).trans ?_
          refine Eq.trans ?_ (range_sum_step (fun j => Cert.Spec.kPart (xarg m c) j s v) n h0).symm
          exact congrArg (fun z => z + Cert.Spec.kPart (xarg m c) n s v) ih1
        · refine ih2.trans ?_
          split_ifs <;> first | rfl | (exfalso; omega)

/-! ## What the half's last point writes back, and the arrays after the region -/

/-- The first accumulator array's contents after the region, as contents of its buffer. -/
abbrev G1 (c : Dev nD) : Buf (Elt Ideal) ((c : Thread nD τ).loc main_v1_0) := Cert.Spec.msumK (xarg m c)
/-- The second's. -/
abbrev G2 (c : Dev nD) : Buf (Elt Ideal) ((c : Thread nD τ).loc main_v1_1) := Cert.Spec.csumK (xarg m c)

/-- The accumulators' index maps: half t / 7, the whole [8, 1024] block. -/
theorem idx_out1 : ∀ t : Fin cfg0.N, win0_1.index t (0 : Fin 3) = t.val / 7 ∧ win0_1.index t (1 : Fin 3) = 0 ∧ win0_1.index t (2 : Fin 3) = 0 :=
  (by decide +kernel : ∀ t : Fin grid0.N, win0_1.index t (0 : Fin 3) = t.val / 7 ∧ win0_1.index t (1 : Fin 3) = 0 ∧ win0_1.index t (2 : Fin 3) = 0)
theorem idx_out2 : ∀ t : Fin cfg0.N, win0_2.index t (0 : Fin 3) = t.val / 7 ∧ win0_2.index t (1 : Fin 3) = 0 ∧ win0_2.index t (2 : Fin 3) = 0 :=
  (by decide +kernel : ∀ t : Fin grid0.N, win0_2.index t (0 : Fin 3) = t.val / 7 ∧ win0_2.index t (1 : Fin 3) = 0 ∧ win0_2.index t (2 : Fin 3) = 0)

/-- Entry (0, s, v) of the block at point t is entry (t / 7, s, v) of the array. -/
theorem emb_out1 (t : Fin cfg0.N) (s : Fin 8) (v : Fin 1024) (ht : t.val / 7 < 2) :
    ((cfg0.win 1).blk t).view.emb (ix3 (0 : Fin 1) s v) = (ix3 (⟨t.val / 7, ht⟩ : Fin 2) s v : S2x8x1024.Idx) := by
  obtain ⟨e0, e1, e2⟩ := idx_out1 t
  funext a
  apply Fin.ext
  match a with
  | ⟨0, _⟩ => show win0_1.index t (0 : Fin 3) * 1 + 1 * 0 = t.val / 7; rw [e0]; omega
  | ⟨1, _⟩ => show win0_1.index t (1 : Fin 3) * 8 + 1 * s.val = s.val; rw [e1]; omega
  | ⟨2, _⟩ => show win0_1.index t (2 : Fin 3) * 1024 + 1 * v.val = v.val; rw [e2]; omega
theorem emb_out2 (t : Fin cfg0.N) (s : Fin 8) (v : Fin 1024) (ht : t.val / 7 < 2) :
    ((cfg0.win 2).blk t).view.emb (ix3 (0 : Fin 1) s v) = (ix3 (⟨t.val / 7, ht⟩ : Fin 2) s v : S2x8x1024.Idx) := by
  obtain ⟨e0, e1, e2⟩ := idx_out2 t
  funext a
  apply Fin.ext
  match a with
  | ⟨0, _⟩ => show win0_2.index t (0 : Fin 3) * 1 + 1 * 0 = t.val / 7; rw [e0]; omega
  | ⟨1, _⟩ => show win0_2.index t (1 : Fin 3) * 8 + 1 * s.val = s.val; rw [e1]; omega
  | ⟨2, _⟩ => show win0_2.index t (2 : Fin 3) * 1024 + 1 * v.val = v.val; rw [e2]; omega

/-- A half's last point writes back the half's block of the accumulated sums. -/
theorem flushed1_eq (c : Dev nD) (t : Fin cfg0.N) (hf : (cfg0.win 1).flush t = true) :
    (dats m 0 c).flushed 1 t = ((cfg0.win 1).blk t).view.read (Elt Ideal) (G1 m c) := by
  have hN : t.val < 14 := lt_of_lt_of_eq t.isLt (show cfg0.N = 14 from N_0)
  have h6 : t.val % 7 = 6 := (flush0_1 t).mp hf
  show (cfg0.win 1).cut (grid0.coords t) ((dats m 0 c).after 1 t) = _
  rw [after0_1]
  refine funext fun (y : S1x8x1024.Idx) => ?_
  obtain ⟨a, s, v, rfl⟩ : ∃ (a : Fin 1) (s : Fin 8) (v : Fin 1024), y = ix3 a s v := ⟨y 0, y 1, y 2, eq_ix3 y⟩
  obtain rfl : a = 0 := Subsingleton.elim _ _
  show (outs m c t.val t.isLt).1 (ix3 (0 : Fin 1) s v)
    = Cert.Spec.msumK (xarg m c) (((cfg0.win 1).blk t).view.emb (ix3 (0 : Fin 1) s v))
  rw [emb_out1 t s v (by omega)]
  refine ((outs_apply m c t.val t.isLt s v).1).trans ?_
  show _ = ∑ b ∈ Finset.range 7, Cert.Spec.kPart (xarg m c) (7 * (t.val / 7) + b) s v
  rw [show t.val % 7 + 1 = 7 by omega, show t.val - t.val % 7 = 7 * (t.val / 7) by omega]

/-- And of the contrast sums. -/
theorem flushed2_eq (c : Dev nD) (t : Fin cfg0.N) (hf : (cfg0.win 2).flush t = true) :
    (dats m 0 c).flushed 2 t = ((cfg0.win 2).blk t).view.read (Elt Ideal) (G2 m c) := by
  have hN : t.val < 14 := lt_of_lt_of_eq t.isLt (show cfg0.N = 14 from N_0)
  have h6 : t.val % 7 = 6 := (flush0_2 t).mp hf
  show (cfg0.win 2).cut (grid0.coords t) ((dats m 0 c).after 2 t) = _
  rw [after0_2]
  refine funext fun (y : S1x8x1024.Idx) => ?_
  obtain ⟨a, s, v, rfl⟩ : ∃ (a : Fin 1) (s : Fin 8) (v : Fin 1024), y = ix3 a s v := ⟨y 0, y 1, y 2, eq_ix3 y⟩
  obtain rfl : a = 0 := Subsingleton.elim _ _
  show (outs m c t.val t.isLt).2 (ix3 (0 : Fin 1) s v)
    = Cert.Spec.csumK (xarg m c) (((cfg0.win 2).blk t).view.emb (ix3 (0 : Fin 1) s v))
  rw [emb_out2 t s v (by omega)]
  refine ((outs_apply m c t.val t.isLt s v).2).trans ?_
  show _ = if t.val / 7 = 0 then 0 - Cert.Spec.kLayer (xarg m c) 2 s v else 0 + Cert.Spec.kLayer (xarg m c) 7 s v
  split_ifs <;> first | rfl | (exfalso; omega)

/-- An entry of an accumulator array lies in the block at point t iff each coordinate lies in the block's range. -/
theorem mem_blk1 (t : Fin cfg0.N) (i : S2x8x1024.Idx) :
    i ∈ ((cfg0.win 1).blk t).view.set ↔ ∀ a : Fin 3, win0_1.index t a * S1x8x1024.size a ≤ (i a).val ∧ (i a).val < win0_1.index t a * S1x8x1024.size a + S1x8x1024.size a := by
  show i ∈ ((View.whole main_v1_0).slice (win0_1.rect t)).set ↔ _
  rw [View.set_slice_whole, Rect.mem_set_unit]
  exact Iff.rfl
theorem mem_blk2 (t : Fin cfg0.N) (i : S2x8x1024.Idx) :
    i ∈ ((cfg0.win 2).blk t).view.set ↔ ∀ a : Fin 3, win0_2.index t a * S1x8x1024.size a ≤ (i a).val ∧ (i a).val < win0_2.index t a * S1x8x1024.size a + S1x8x1024.size a := by
  show i ∈ ((View.whole main_v1_1).slice (win0_2.rect t)).set ↔ _
  rw [View.set_slice_whole, Rect.mem_set_unit]
  exact Iff.rfl

/-- Entry (hb, s, v) lies in the block written back at half hb's last point, 7 * hb + 6. -/
theorem cover1 (i : S2x8x1024.Idx) : ∃ t : Fin cfg0.N, (cfg0.win 1).flush t = true ∧ i ∈ ((cfg0.win 1).blk t).view.set := by
  have h0 : (i 0).val < 2 := (i 0).isLt
  have h1 : (i 1).val < 8 := (i 1).isLt
  have h2 : (i 2).val < 1024 := (i 2).isLt
  obtain ⟨t, ht⟩ : ∃ t : Fin cfg0.N, t.val = 7 * (i 0).val + 6 :=
    ⟨⟨7 * (i 0).val + 6, lt_of_lt_of_eq (by omega : 7 * (i 0).val + 6 < 14) (show cfg0.N = 14 from N_0).symm⟩, rfl⟩
  refine ⟨t, (flush0_1 t).mpr (by omega), ?_⟩
  rw [mem_blk1]
  obtain ⟨e0, e1, e2⟩ := idx_out1 t
  intro a
  match a with
  | ⟨0, _⟩ =>
    show win0_1.index t (0 : Fin 3) * 1 ≤ (i 0).val ∧ (i 0).val < win0_1.index t (0 : Fin 3) * 1 + 1
    rw [e0]; omega
  | ⟨1, _⟩ =>
    show win0_1.index t (1 : Fin 3) * 8 ≤ (i 1).val ∧ (i 1).val < win0_1.index t (1 : Fin 3) * 8 + 8
    rw [e1]; omega
  | ⟨2, _⟩ =>
    show win0_1.index t (2 : Fin 3) * 1024 ≤ (i 2).val ∧ (i 2).val < win0_1.index t (2 : Fin 3) * 1024 + 1024
    rw [e2]; omega
theorem cover2 (i : S2x8x1024.Idx) : ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 1024 := (i 2).isLt
  obtain ⟨t, ht⟩ : ∃ t : Fin cfg0.N, t.val = 7 * (i 0).val + 6 :=
    ⟨⟨7 * (i 0).val + 6, lt_of_lt_of_eq (by omega : 7 * (i 0).val + 6 < 14) (show cfg0.N = 14 from N_0).symm⟩, rfl⟩
  refine ⟨t, (flush0_2 t).mpr (by omega), ?_⟩
  rw [mem_blk2]
  obtain ⟨e0, e1, e2⟩ := idx_out2 t
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 8 ≤ (i 1).val ∧ (i 1).val < win0_2.index t (1 : Fin 3) * 8 + 8
    rw [e1]; omega
  | ⟨2, _⟩ =>
    show win0_2.index t (2 : Fin 3) * 1024 ≤ (i 2).val ∧ (i 2).val < win0_2.index t (2 : Fin 3) * 1024 + 1024
    rw [e2]; omega

/-- The first accumulator array after the region. -/
theorem final1 (c : Dev nD) :
    (dats (F := Ideal) m 0 c).arrAt 1 cfg0.N = Cert.Spec.msumK (m ((c : Thread nD τ).loc main_arg0)) :=
  (dats m 0 c).arrAt_eq_of_cover 1 (G1 m c) (fun t hf => flushed1_eq m c t hf) (fun i => cover1 i)

/-- The second accumulator array after the region. -/
theorem final2 (c : Dev nD) :
    (dats (F := Ideal) m 0 c).arrAt 2 cfg0.N = Cert.Spec.csumK (m ((c : Thread nD τ).loc main_arg0)) :=
  (dats m 0 c).arrAt_eq_of_cover 2 (G2 m c) (fun t hf => flushed2_eq m c t hf) (fun i => cover2 i)

end Cert.KernelIdeal.KValue

end
-- ==== Proof.KTail.lean ====
/-
  The host operations after the region, read as functions of the two accumulator arrays the region leaves:
  each is collapsed to a vector of 1024 sums, divided by its count, and the contrast result is then rectified.
-/
import proofs.«156739_g2000006290178658_pallasbulk_805_4_alg».proof.Proof.Spec
import proofs.«156739_g2000006290178658_pallasbulk_805_4_alg».proof.Proof.Gen.KernelIdeal.Frame
import Idealize.ShloMosaic.Lib.StableHlo.Run
import Idealize.ShloMosaic.Lib.Pipeline.Value
import Idealize.ShloMosaic.PureOps.Ideal.Laws
import Idealize.ShloMosaic.Lib.IdealHost

noncomputable section

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen

/-- Dropping the two leading coordinates of a rank-3 index gives the rank-1 index j exactly when the third coordinate is j's. -/
private theorem drop_eq_iff (h : Cert.Spec.A3.ReducesTo [0, 1] Cert.Spec.V1) (i : Cert.Spec.A3.Idx) (j : Cert.Spec.V1.Idx) :
    h.drop i = j ↔ (i 2).val = (j 0).val := by
  constructor
  · intro e
    have := Shape.ReducesTo.drop_apply_val_of_eq h i 0 2
    rw [e] at this
    exact this.symm
  · intro e
    funext d
    match d with
    | ⟨0, _⟩ => exact Fin.ext ((Shape.ReducesTo.drop_apply_val_of_eq h i 0 2).trans e)

/-- The sum over both leading axes at column j: the initial value plus the double sum over the halves and the rows. -/
private theorem reduce01 (h : Cert.Spec.A3.ReducesTo [0, 1] Cert.Spec.V1) (A : Cert.Spec.A3.Idx → EReal) (init : EReal)
    (j : Cert.Spec.V1.Idx) :
    Ideal.hostReduceAdd h A init j = init + ∑ hb : Fin 2, ∑ s : Fin 8, A (ix3 hb s (j 0)) := by
  unfold Ideal.hostReduceAdd
  congr 1
  rw [← Fintype.sum_prod_type' (f := fun (hb : Fin 2) (s : Fin 8) => A (ix3 hb s (j 0)))]
  refine Finset.sum_nbij' (fun i => ((i 0, i 1) : Fin 2 × Fin 8)) (fun p => ix3 p.1 p.2 (j 0)) ?_ ?_ ?_ ?_ ?_
  · intro a _; exact Finset.mem_univ _
  · intro p _; rw [Finset.mem_filter]; exact ⟨Finset.mem_univ _, (drop_eq_iff h _ j).2 rfl⟩
  · intro a ha
    rw [Finset.mem_filter] at ha
    have e : a 2 = j 0 := Fin.ext ((drop_eq_iff h a j).1 ha.2)
    rw [← e]; exact (eq_ix3 a).symm
  · intro p _; rfl
  · intro a ha
    rw [Finset.mem_filter] at ha
    have e : a 2 = j 0 := Fin.ext ((drop_eq_iff h a j).1 ha.2)
    rw [← e]; exact congrArg A (eq_ix3 a)

/-- The mean's operations on any array A: the collapse over halves and rows from zero, divided by the broadcast count. -/
private theorem mean_fn (A : Cert.Spec.A3.Idx → EReal) (h : Cert.Spec.A3.ReducesTo [0, 1] Cert.Spec.V1) (hu : 0 < S_.numel)
    (hb : S_.BroadcastsInDim S1024 (![] : Fin 0 → Fin S1024.rank)) :
    Host.divf (Host.reduceAdd (F := Ideal) (φ := .f32) A (constant S_ .f32 0x00000000#32) h hu)
        (broadcastInDim S1024 ![] hb (constant S_ .f32 0x47C40000#32))
      = Cert.Spec.outMean (Cert.Spec.foldK A) := by
  funext j
  rw [hostDivf_apply, hostReduceAdd_apply, reduce01, constant_apply, Ideal.ofBits_zero_f32, zero_add,
    broadcastInDim_scalar_apply, constant_apply]
  rfl

/-- The contrast's operations on any array A: the same collapse, divided by its count, then the maximum with zero. -/
private theorem contr_fn (A : Cert.Spec.A3.Idx → EReal) (h : Cert.Spec.A3.ReducesTo [0, 1] Cert.Spec.V1) (hu : 0 < S_.numel)
    (hb : S_.BroadcastsInDim S1024 (![] : Fin 0 → Fin S1024.rank)) :
    maximumf (Host.divf (Host.reduceAdd (F := Ideal) (φ := .f32) A (constant S_ .f32 0x00000000#32) h hu)
        (broadcastInDim S1024 ![] hb (constant S_ .f32 0x45600000#32)))
        (broadcastInDim S1024 ![] hb (constant S_ .f32 0x00000000#32))
      = Cert.Spec.outContr (Cert.Spec.foldK A) := by
  funext j
  rw [maximumf_apply, hostDivf_apply, hostReduceAdd_apply, reduce01, constant_apply, Ideal.ofBits_zero_f32, zero_add,
    broadcastInDim_scalar_apply, broadcastInDim_scalar_apply, constant_apply, constant_apply]
  rfl

variable (m : (ℓ : Loc nD τ sig) → Buf (Elt Ideal) ℓ)

/-- The first result after the tail: the mean of the collapsed first accumulator array, whatever proof data names that array. -/
theorem tail_mean (dats : (p : Fin 1) → (c : Dev nD) → Dat τ (Elt Ideal) Unit ℕ (UR sig nD τ) ℕ (cfgs p) c) (c : Dev nD) :
    Pipeline.afterTail₀ cfgs dats 0 (V0 m) [hostOps1] c main_v4
      = Cert.Spec.outMean (Cert.Spec.foldK ((dats 0 c).arrAt 1 cfg0.N)) := by
  unfold Pipeline.afterTail₀
  show StableHlo.after hostOps1 _ (Proc.devRef .tc main_v4) = _
  after_results
  have e := Pipeline.withArrays_arr spec0 launch0.win.arr_inj c (V0 m c) (fun w => (dats 0 c).arrAt w cfg0.N) 1
  rw [show Pipeline.withArrays (cfgs 0).spec c (V0 m c) (fun w => (dats 0 c).arrAt w (cfgs 0).N) (Proc.devRef .tc main_v1_0)
      = (dats 0 c).arrAt 1 cfg0.N from e]
  exact mean_fn _ _ _ _

/-- The second result after the tail: the rectified scaled collapse of the second accumulator array. -/
theorem tail_contr (dats : (p : Fin 1) → (c : Dev nD) → Dat τ (Elt Ideal) Unit ℕ (UR sig nD τ) ℕ (cfgs p) c) (c : Dev nD) :
    Pipeline.afterTail₀ cfgs dats 0 (V0 m) [hostOps1] c main_v9
      = Cert.Spec.outContr (Cert.Spec.foldK ((dats 0 c).arrAt 2 cfg0.N)) := by
  unfold Pipeline.afterTail₀
  show StableHlo.after hostOps1 _ (Proc.devRef .tc main_v9) = _
  after_results
  have e := Pipeline.withArrays_arr spec0 launch0.win.arr_inj c (V0 m c) (fun w => (dats 0 c).arrAt w cfg0.N) 2
  rw [show Pipeline.withArrays (cfgs 0).spec c (V0 m c) (fun w => (dats 0 c).arrAt w (cfgs 0).N) (Proc.devRef .tc main_v1_1)
      = (dats 0 c).arrAt 2 cfg0.N from e]
  exact contr_fn _ _ _ _

end Cert.KernelIdeal.Tail

end
-- ==== Proof.RValue.lean ====
/-
  What the reference's region leaves in its two accumulator arrays: per half of the head axis, the running sum over the
  layers of each layer's total (over the half's heads and all queries), and the same sum weighted by the contrast sign.
-/
import proofs.«156739_g2000006290178658_pallasbulk_805_4_alg».proof.Proof.Spec
import proofs.«156739_g2000006290178658_pallasbulk_805_4_alg».proof.Proof.Gen.ReferenceIdeal.Frame
import Idealize.ShloMosaic.Lib.Pipeline.Value
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Idealize.ShloMosaic.Tactic
open Idealize.ShloMosaic.Pipeline (Dat)
open Cert.ReferenceIdeal Cert.ReferenceIdeal.Gen

variable (m : (ℓ : Loc nD τ sig) → Buf (Elt Ideal) ℓ)

section Pieces
variable {F : FTy → Type} [FloatOps F]

/-- The staging blocks are read and written through zero offsets. -/
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-- A later layer, first accumulator: the running block plus the layer's total. -/
private theorem out_B_1 (c : Dev nD) (i : grid0.Coords) (a2 : Memref sig .tc .vmem S1x14x128x1024 .bf16) (h2 : a2.IsWhole)
    (a3 : Memref sig .tc .vmem S1x8x1024 .f32) (h3 : a3.IsWhole) (a4 : Memref sig .tc .vmem S1x8x1024 .f32) (h4 : a4.IsWhole)
    (hc : ¬cond0_0 i) (x : Vec F S1x14x128x1024 .bf16) (xo1 xo2 : Vec F S1x8x1024 .f32) :
    out0_B_1 c i a2 h2 a3 h3 a4 h4 hc x xo1 xo2 = k0_pay6 x xo1 := by
  unfold out0_B_1
  rw [View.read_writes_eq_canon _ _ _ (cover0_B_1 c i a2 h2 a3 h3 a4 h4 hc x xo1 xo2)]
  unfold kernelRun0_B
  dsimp only
  sl_unfold_words
  rw [View.canon_unit_zero hz3]
  simp only [View.readAt_eq_ld, h2.read_unread, h3.read_unread, View.ld_unit_zero (S := S1x14x128x1024) hz4,
    View.ld_unit_zero (S := S1x8x1024) hz3]

/-- A later layer, second accumulator: the running block plus the layer's weighted total. -/
private theorem out_B_2 (c : Dev nD) (i : grid0.Coords) (a2 : Memref sig .tc .vmem S1x14x128x1024 .bf16) (h2 : a2.IsWhole)
    (a3 : Memref sig .tc .vmem S1x8x1024 .f32) (h3 : a3.IsWhole) (a4 : Memref sig .tc .vmem S1x8x1024 .f32) (h4 : a4.IsWhole)
    (hc : ¬cond0_0 i) (x : Vec F S1x14x128x1024 .bf16) (xo1 xo2 : Vec F S1x8x1024 .f32) :
    out0_B_2 c i a2 h2 a3 h3 a4 h4 hc x xo1 xo2 = k0_pay1 (k0_pay5 i x) xo2 := by
  unfold out0_B_2
  rw [View.read_writes_eq_canon _ _ _ (cover0_B_2 c i a2 h2 a3 h3 a4 h4 hc x xo1 xo2)]
  unfold kernelRun0_B
  dsimp only
  sl_unfold_words
  rw [View.canon_unit_zero hz3]
  simp only [View.readAt_eq_ld, h2.read_unread, h4.read_unread, View.ld_unit_zero (S := S1x14x128x1024) hz4,
    View.ld_unit_zero (S := S1x8x1024) hz3]

/-- Layer 0, first accumulator: the zero block is stored, read back, and the layer's total added to it. -/
private theorem out_A_1 (c : Dev nD) (i : grid0.Coords) (a2 : Memref sig .tc .vmem S1x14x128x1024 .bf16) (h2 : a2.IsWhole)
    (a3 : Memref sig .tc .vmem S1x8x1024 .f32) (h3 : a3.IsWhole) (a4 : Memref sig .tc .vmem S1x8x1024 .f32) (h4 : a4.IsWhole)
    (hc : cond0_0 i) (x : Vec F S1x14x128x1024 .bf16) :
    out0_A_1 c i a2 h2 a3 h3 a4 h4 hc x = k0_pay6 x (k0_pay2 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S1x8x1024) hz3, View.readCov_unit_zero (S := S1x8x1024) _ hz3]
  simp only [View.readAt_eq_ld, h2.read_unread, View.ld_unit_zero (S := S1x14x128x1024) hz4]

/-- Layer 0, second accumulator: likewise with the weighted total. -/
private theorem out_A_2 (c : Dev nD) (i : grid0.Coords) (a2 : Memref sig .tc .vmem S1x14x128x1024 .bf16) (h2 : a2.IsWhole)
    (a3 : Memref sig .tc .vmem S1x8x1024 .f32) (h3 : a3.IsWhole) (a4 : Memref sig .tc .vmem S1x8x1024 .f32) (h4 : a4.IsWhole)
    (hc : cond0_0 i) (x : Vec F S1x14x128x1024 .bf16) :
    out0_A_2 c i a2 h2 a3 h3 a4 h4 hc x = k0_pay1 (k0_pay5 i x) (k0_pay3 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S1x8x1024) hz3, View.readCov_unit_zero (S := S1x8x1024) _ hz3]
  simp only [View.readAt_eq_ld, h2.read_unread, View.ld_unit_zero (S := S1x14x128x1024) hz4]

end Pieces

section Payloads

/-- The first accumulator's reset block is zero everywhere. -/
private theorem pay2_apply (s : Fin 8) (v : Fin 1024) : k0_pay2 (F := Ideal) (ix3 (0 : Fin 1) s v) = 0 := by
  unfold k0_pay2
  exact Ideal.ofBits_zero_f32

/-- So is the second accumulator's. -/
private theorem pay3_apply (s : Fin 8) (v : Fin 1024) : k0_pay3 (F := Ideal) (ix3 (0 : Fin 1) s v) = 0 := by
  unfold k0_pay3
  exact Ideal.ofBits_zero_f32

/-- One layer's total at lane `v`: the sum over the block's 14 heads and 128 queries (the widening to f32 changes no
    value; the two lane sums run over axis 2, then axis 1). -/
private theorem pay4_apply (x : Vec Ideal S1x14x128x1024 .bf16) (v : Fin 1024) :
    k0_pay4 x (ix2 (0 : Fin 1) v) = ∑ h : Fin 14, ∑ q : Fin 128, x (ix4 (0 : Fin 1) h q v) := by
  unfold k0_pay4
  refine (Ideal.multiReduction_add_single _ _ reduces_S1x14x1024_S1x1024 _ _ (ix2 (0 : Fin 1) v)).trans ?_
  refine Finset.sum_congr rfl fun h _ => ?_
  refine (Ideal.multiReduction_add_single _ _ reduces_S1x14x128x1024_S1x14x1024 _ _ _).trans ?_
  refine Finset.sum_congr rfl fun q _ => ?_
  show x _ = x _
  refine congrArg x (funext fun a => Fin.ext ?_)
  match a with
  | ⟨0, _⟩ => rfl
  | ⟨1, _⟩ => rfl
  | ⟨2, _⟩ => rfl
  | ⟨3, _⟩ => rfl

/-- The sum over the unit axis 0 of a [1, 1024] vector, viewed [1, 1024] again, is the vector. -/
private theorem lift0 (v : Fin 1024) : reduces_S1x1024_S1024.lift (ix1 v) (0 : Fin 1) = ix2 (0 : Fin 1) v :=
  funext fun a => Fin.ext (match a with | ⟨0, _⟩ => rfl | ⟨1, _⟩ => rfl)

/-- The first accumulator's update: the running block plus the layer's total, the same on each of the eight rows. -/
private theorem pay6_apply (x : Vec Ideal S1x14x128x1024 .bf16) (acc : Vec Ideal S1x8x1024 .f32) (s : Fin 8) (v : Fin 1024) :
    k0_pay6 x acc (ix3 (0 : Fin 1) s v) = acc (ix3 (0 : Fin 1) s v) + k0_pay4 x (ix2 (0 : Fin 1) v) := by
  unfold k0_pay6
  refine (addf_apply _ _ (ix3 (0 : Fin 1) s v)).trans ?_
  refine congrArg₂ (· + ·) ?_ ?_
  · exact congrFun (shapeCast_self acc shapeCasts_S1x8x1024_S1x8x1024) _
  · refine (broadcastTo_apply _ broadcasts_S1x1x1024_S1x8x1024 (ix3 (0 : Fin 1) s v) (ix3 (0 : Fin 1) (0 : Fin 1) v) ?_).trans ?_
    · intro a
      match a with
      | ⟨0, _⟩ => rfl
      | ⟨1, _⟩ => rfl
      | ⟨2, _⟩ => rfl
    refine (shapeCast_apply _ shapeCasts_S1x1024_S1x1x1024 (ix3 (0 : Fin 1) (0 : Fin 1) v) (ix2 (0 : Fin 1) v) ?_).trans ?_
    · rw [Shape.rowMajor_val_two, Shape.rowMajor_val_three]
      show 0 * 1024 + v.val = (0 * 1 + 0) * 1024 + v.val
      omega
    refine (shapeCast_apply _ shapeCasts_S1024_S1x1024 (ix2 (0 : Fin 1) v) (ix1 v) ?_).trans ?_
    · rw [Shape.rowMajor_val_one, Shape.rowMajor_val_two]
      show v.val = 0 * 1024 + v.val
      omega
    refine (Ideal.multiReduction_add_single _ _ reduces_S1x1024_S1024 _ _ (ix1 v)).trans ?_
    refine (Fin.sum_univ_one _).trans ?_
    exact congrArg (k0_pay4 x) (lift0 v)

/-- The second accumulator's update: the running block plus the weighted total. -/
private theorem pay1_apply (w : FVec Ideal S1x1024 .f32) (acc : Vec Ideal S1x8x1024 .f32) (s : Fin 8) (v : Fin 1024) :
    k0_pay1 w acc (ix3 (0 : Fin 1) s v) = acc (ix3 (0 : Fin 1) s v) + w (ix2 (0 : Fin 1) v) := by
  unfold k0_pay1
  refine (addf_apply _ _ (ix3 (0 : Fin 1) s v)).trans ?_
  refine congrArg₂ (· + ·) ?_ ?_
  · exact congrFun (shapeCast_self acc shapeCasts_S1x8x1024_S1x8x1024) _
  · refine (broadcastTo_apply _ broadcasts_S1x1x1024_S1x8x1024 (ix3 (0 : Fin 1) s v) (ix3 (0 : Fin 1) (0 : Fin 1) v) ?_).trans ?_
    · intro a
      match a with
      | ⟨0, _⟩ => rfl
      | ⟨1, _⟩ => rfl
      | ⟨2, _⟩ => rfl
    refine shapeCast_apply _ shapeCasts_S1x1024_S1x1x1024 (ix3 (0 : Fin 1) (0 : Fin 1) v) (ix2 (0 : Fin 1) v) ?_
    rw [Shape.rowMajor_val_two, Shape.rowMajor_val_three]
    show 0 * 1024 + v.val = (0 * 1 + 0) * 1024 + v.val
    omega

/-- The layer number as a 32-bit word, compared with a layer number `K`: below 2^32 the compare of words is the compare
    of naturals. -/
private theorem bit_eq (lk : ℕ) (hlk : lk < 28) (K : ℕ) (hK : K = 14 ∨ K = 4) :
    IntOp.cmpi .eq (IntOp.addi (Scalar.muli (BitVec.ofNat 32 lk) 1#32) (BitVec.ofNat 32 0)) (BitVec.ofNat 32 K)
      = if lk = K then 1#1 else 0#1 := by
  rcases hK with rfl | rfl <;> interval_cases lk <;> rfl

private theorem one_f32 : Ideal.ofBits .f32 0x3F800000#32 = 1 := IdealRules.sign_bit.ideal_onePat .f32

/-- The select between 1.0 and 0.0 on "the layer is `K`". -/
private theorem sel_eq (lk : ℕ) (hlk : lk < 28) (K : ℕ) (hK : K = 14 ∨ K = 4) :
    Scalar.select (IntOp.cmpi .eq (IntOp.addi (Scalar.muli (BitVec.ofNat 32 lk) 1#32) (BitVec.ofNat 32 0)) (BitVec.ofNat 32 K))
      (Ideal.ofBits .f32 0x3F800000#32) (Ideal.ofBits .f32 0x00000000#32) = if lk = K then (1 : EReal) else 0 := by
  rw [bit_eq lk hlk K hK, one_f32, Ideal.ofBits_zero_f32]
  by_cases h : lk = K
  · rw [if_pos h, if_pos h]; exact select_one _ _
  · rw [if_neg h, if_neg h]; exact select_zero _ _

/-- The iota along the unit axis 0 of [1, 1024] is zero. -/
private theorem iota_at (v : Fin 1024) : iota .tc S1x1024 32 [0] iota_S1x1024_d0_w32 (ix2 (0 : Fin 1) v) = BitVec.ofNat 32 0 :=
  iota_single_apply .tc S1x1024 32 0 iota_S1x1024_d0_w32 (ix2 (0 : Fin 1) v)

/-- The weighted total: the layer's total times the contrast weight of the layer the grid point is at. -/
private theorem pay5_apply (i : grid0.Coords) (x : Vec Ideal S1x14x128x1024 .bf16) (v : Fin 1024) :
    k0_pay5 i x (ix2 (0 : Fin 1) v) = Cert.Spec.sgn (i 1).val * k0_pay4 x (ix2 (0 : Fin 1) v) := by
  have hlk : (i 1).val < 28 := (i 1).isLt
  unfold k0_pay5
  refine (shapeCast_apply _ shapeCasts_S1024_S1x1024 (ix2 (0 : Fin 1) v) (ix1 v) ?_).trans ?_
  · rw [Shape.rowMajor_val_one, Shape.rowMajor_val_two]
    show v.val = 0 * 1024 + v.val
    omega
  refine (Ideal.multiReduction_add_single _ _ reduces_S1x1024_S1024 _ _ (ix1 v)).trans ?_
  refine (Fin.sum_univ_one _).trans ?_
  show (Scalar.select (IntOp.cmpi .eq (IntOp.addi (Scalar.muli (BitVec.ofNat 32 (i 1).val) 1#32)
            (iota .tc S1x1024 32 [0] iota_S1x1024_d0_w32 (reduces_S1x1024_S1024.lift (ix1 v) (0 : Fin 1)))) (BitVec.ofNat 32 14))
          (Ideal.ofBits .f32 0x3F800000#32) (Ideal.ofBits .f32 0x00000000#32)
        - Scalar.select (IntOp.cmpi .eq (IntOp.addi (Scalar.muli (BitVec.ofNat 32 (i 1).val) 1#32)
            (iota .tc S1x1024 32 [0] iota_S1x1024_d0_w32 (reduces_S1x1024_S1024.lift (ix1 v) (0 : Fin 1)))) (BitVec.ofNat 32 4))
          (Ideal.ofBits .f32 0x3F800000#32) (Ideal.ofBits .f32 0x00000000#32))
      * k0_pay4 x (reduces_S1x1024_S1024.lift (ix1 v) (0 : Fin 1)) = _
  rw [lift0 v, iota_at v, sel_eq _ hlk 14 (.inl rfl), sel_eq _ hlk 4 (.inr rfl)]
  rfl

end Payloads

section Value

/-- The argument array as the region finds it. -/
private abbrev xarr (c : Dev nD) : Cert.Spec.X4.Idx → EReal := m ((c : Thread nD τ).loc main_arg0)

/-- The layer block the window hands the body at point `t`. -/
private abbrev xblk (c : Dev nD) (t : Fin cfg0.N) : Vec Ideal S1x14x128x1024 .bf16 := iblk m c 0 t

private theorem lt56 (t : Fin cfg0.N) : t.val < 56 := lt_of_lt_of_eq t.isLt (show cfg0.N = 56 from N_0)

/-- Point `t` is at layer `t mod 28`. -/
private theorem coord1 : ∀ t : Fin cfg0.N, ((grid0.coords t) 1).val = t.val % 28 :=
  (by decide +kernel : ∀ t : Fin grid0.N, ((grid0.coords t) 1).val = t.val % 28)

/-- The input window's block index at point `t`: (layer, half, 0, 0). -/
private theorem idx0 : ∀ t : Fin cfg0.N, win0_0.index t 0 = t.val % 28 ∧ win0_0.index t 1 = t.val / 28
    ∧ win0_0.index t 2 = 0 ∧ win0_0.index t 3 = 0 :=
  (by decide +kernel : ∀ t : Fin grid0.N, win0_0.index t 0 = t.val % 28 ∧ win0_0.index t 1 = t.val / 28
    ∧ win0_0.index t 2 = 0 ∧ win0_0.index t 3 = 0)

/-- The accumulator windows' block index at point `t`: (half, 0, 0). -/
private theorem idx1 : ∀ t : Fin cfg0.N, win0_1.index t 0 = t.val / 28 ∧ win0_1.index t 1 = 0 ∧ win0_1.index t 2 = 0 :=
  (by decide +kernel : ∀ t : Fin grid0.N, win0_1.index t 0 = t.val / 28 ∧ win0_1.index t 1 = 0 ∧ win0_1.index t 2 = 0)
private theorem idx2 : ∀ t : Fin cfg0.N, win0_2.index t 0 = t.val / 28 ∧ win0_2.index t 1 = 0 ∧ win0_2.index t 2 = 0 :=
  (by decide +kernel : ∀ t : Fin grid0.N, win0_2.index t 0 = t.val / 28 ∧ win0_2.index t 1 = 0 ∧ win0_2.index t 2 = 0)

/-- Row `3584 l + 128 h + q` of the matrix is entry (l, h, q) of the array. -/
private theorem lay_eq (x : Cert.Spec.X4.Idx → EReal) (l : Fin 28) (hd : Fin 28) (q : Fin 128) (v : Fin 1024) :
    Cert.Spec.lay x (3584 * l.val + 128 * hd.val + q.val) v = x (ix4 l hd q v) := by
  have h1 := l.isLt; have h2 := hd.isLt; have h3 := q.isLt
  unfold Cert.Spec.lay
  rw [dif_pos (show 3584 * l.val + 128 * hd.val + q.val < 100352 by omega)]
  refine congrArg x (funext fun a => Fin.ext ?_)
  match a with
  | ⟨0, _⟩ => show (3584 * l.val + 128 * hd.val + q.val) / 3584 = l.val; omega
  | ⟨1, _⟩ => show (3584 * l.val + 128 * hd.val + q.val) / 128 % 28 = hd.val; omega
  | ⟨2, _⟩ => show (3584 * l.val + 128 * hd.val + q.val) % 128 = q.val; omega
  | ⟨3, _⟩ => rfl

/-- The block at point `t` read at (0, h, q, v): the array at layer `t mod 28`, head `14 (t / 28) + h`. -/
private theorem xblk_apply (c : Dev nD) (t : Fin cfg0.N) (h : Fin 14) (q : Fin 128) (v : Fin 1024) :
    xblk m c t (ix4 (0 : Fin 1) h q v)
      = Cert.Spec.lay (xarr m c) (3584 * (t.val % 28) + 128 * (14 * (t.val / 28) + h.val) + q.val) v := by
  have hN := lt56 t
  obtain ⟨i0, i1, i2, i3⟩ := idx0 t
  have hh := h.isLt
  refine Eq.trans ?_ (lay_eq (xarr m c) ⟨t.val % 28, by omega⟩ ⟨14 * (t.val / 28) + h.val, by omega⟩ q v).symm
  show V m c main_arg0 (((cfg0.win 0).blk t).view.emb (ix4 (0 : Fin 1) h q v)) = _
  show xarr m c _ = xarr m c _
  refine congrArg (xarr m c) (funext fun a => Fin.ext ?_)
  match a with
  | ⟨0, _⟩ => show win0_0.index t 0 * 1 + 1 * 0 = t.val % 28; rw [i0]; omega
  | ⟨1, _⟩ => show win0_0.index t 1 * 14 + 1 * h.val = 14 * (t.val / 28) + h.val; rw [i1]; omega
  | ⟨2, _⟩ => show win0_0.index t 2 * 128 + 1 * q.val = q.val; rw [i2]; omega
  | ⟨3, _⟩ => show win0_0.index t 3 * 1024 + 1 * v.val = v.val; rw [i3]; omega

/-- One layer's total at point `t`. -/
private theorem layer_sum (c : Dev nD) (t : Fin cfg0.N) (v : Fin 1024) :
    k0_pay4 (xblk m c t) (ix2 (0 : Fin 1) v) = Cert.Spec.rLayer (xarr m c) (t.val % 28) (t.val / 28) v := by
  rw [pay4_apply]
  unfold Cert.Spec.rLayer
  exact Finset.sum_congr rfl fun h _ => Finset.sum_congr rfl fun q _ => xblk_apply m c t h q v

/-- At a half's first layer both accumulators start from zero. -/
private theorem stepA (c : Dev nD) (t : Fin cfg0.N) (h0 : t.val % 28 = 0) (s : Fin 8) (v : Fin 1024) :
    (outsAt0 m c t.val t.isLt).1 (ix3 (0 : Fin 1) s v)
        = 0 + Cert.Spec.rLayer (xarr m c) (t.val % 28) (t.val / 28) v
    ∧ (outsAt0 m c t.val t.isLt).2 (ix3 (0 : Fin 1) s v)
        = 0 + Cert.Spec.sgn (t.val % 28) * Cert.Spec.rLayer (xarr m c) (t.val % 28) (t.val / 28) v := by
  rw [outsAt0_A m c t h0]
  dsimp only
  constructor
  · refine (congrFun (out_A_1 (F := Ideal) c (grid0.coords t) (ms0_0 t) (hs0_0 t) (ms0_1 t) (hs0_1 t) (ms0_2 t) (hs0_2 t)
      ((hcond0_0 t).mpr h0) (xblk m c t)) (ix3 (0 : Fin 1) s v)).trans ?_
    rw [pay6_apply, pay2_apply, layer_sum]
  · refine (congrFun (out_A_2 (F := Ideal) c (grid0.coords t) (ms0_0 t) (hs0_0 t) (ms0_1 t) (hs0_1 t) (ms0_2 t) (hs0_2 t)
      ((hcond0_0 t).mpr h0) (xblk m c t)) (ix3 (0 : Fin 1) s v)).trans ?_
    rw [pay1_apply, pay3_apply, pay5_apply, coord1 t, layer_sum]

/-- At a later layer each accumulator adds its increment to what the layer before left. -/
private theorem stepB (c : Dev nD) (n : ℕ) (hn : n + 1 < cfg0.N) (h0 : ¬(n + 1) % 28 = 0) (s : Fin 8) (v : Fin 1024) :
    (outsAt0 m c (n + 1) hn).1 (ix3 (0 : Fin 1) s v)
        = (outsAt0 m c n (Nat.lt_of_succ_lt hn)).1 (ix3 (0 : Fin 1) s v)
          + Cert.Spec.rLayer (xarr m c) ((n + 1) % 28) ((n + 1) / 28) v
    ∧ (outsAt0 m c (n + 1) hn).2 (ix3 (0 : Fin 1) s v)
        = (outsAt0 m c n (Nat.lt_of_succ_lt hn)).2 (ix3 (0 : Fin 1) s v)
          + Cert.Spec.sgn ((n + 1) % 28) * Cert.Spec.rLayer (xarr m c) ((n + 1) % 28) ((n + 1) / 28) v := by
  rw [outsAt0_B m c ⟨n + 1, hn⟩ h0]
  dsimp only
  constructor
  · refine (congrFun (out_B_1 (F := Ideal) c (grid0.coords ⟨n + 1, hn⟩) (ms0_0 ⟨n + 1, hn⟩) (hs0_0 ⟨n + 1, hn⟩)
      (ms0_1 ⟨n + 1, hn⟩) (hs0_1 ⟨n + 1, hn⟩) (ms0_2 ⟨n + 1, hn⟩) (hs0_2 ⟨n + 1, hn⟩)
      (fun h => h0 ((hcond0_0 ⟨n + 1, hn⟩).mp h)) (xblk m c ⟨n + 1, hn⟩)
      (outsAt0 m c n (Nat.lt_of_succ_lt hn)).1 (outsAt0 m c n (Nat.lt_of_succ_lt hn)).2) (ix3 (0 : Fin 1) s v)).trans ?_
    rw [pay6_apply, layer_sum]
  · refine (congrFun (out_B_2 (F := Ideal) c (grid0.coords ⟨n + 1, hn⟩) (ms0_0 ⟨n + 1, hn⟩) (hs0_0 ⟨n + 1, hn⟩)
      (ms0_1 ⟨n + 1, hn⟩) (hs0_1 ⟨n + 1, hn⟩) (ms0_2 ⟨n + 1, hn⟩) (hs0_2 ⟨n + 1, hn⟩)
      (fun h => h0 ((hcond0_0 ⟨n + 1, hn⟩).mp h)) (xblk m c ⟨n + 1, hn⟩)
      (outsAt0 m c n (Nat.lt_of_succ_lt hn)).1 (outsAt0 m c n (Nat.lt_of_succ_lt hn)).2) (ix3 (0 : Fin 1) s v)).trans ?_
    rw [pay1_apply, pay5_apply, coord1 ⟨n + 1, hn⟩, layer_sum]

/-- The invariant at a half's first layer: the sums over the one layer so far. -/
private theorem invA (c : Dev nD) (t : Fin cfg0.N) (h0 : t.val % 28 = 0) (s : Fin 8) (v : Fin 1024) :
    (outsAt0 m c t.val t.isLt).1 (ix3 (0 : Fin 1) s v)
        = ∑ lk ∈ Finset.range (t.val % 28 + 1), Cert.Spec.rLayer (xarr m c) lk (t.val / 28) v
    ∧ (outsAt0 m c t.val t.isLt).2 (ix3 (0 : Fin 1) s v)
        = ∑ lk ∈ Finset.range (t.val % 28 + 1), Cert.Spec.sgn lk * Cert.Spec.rLayer (xarr m c) lk (t.val / 28) v := by
  obtain ⟨h1, h2⟩ := stepA m c t h0 s v
  constructor
  · rw [h1, h0]; simp only [zero_add, Finset.sum_range_one]
  · rw [h2, h0]; simp only [zero_add, Finset.sum_range_one]

/-- THE INVARIANT: after the point at layer `n mod 28` of half `n / 28` the first accumulator holds, on each of its eight
    rows, the sum of the half's layer totals up to that layer, and the second the same sum weighted by the contrast sign. -/
private theorem acc_inv (c : Dev nD) : ∀ (n : ℕ) (hn : n < cfg0.N) (s : Fin 8) (v : Fin 1024),
    (outsAt0 m c n hn).1 (ix3 (0 : Fin 1) s v)
        = ∑ lk ∈ Finset.range (n % 28 + 1), Cert.Spec.rLayer (xarr m c) lk (n / 28) v
    ∧ (outsAt0 m c n hn).2 (ix3 (0 : Fin 1) s v)
        = ∑ lk ∈ Finset.range (n % 28 + 1), Cert.Spec.sgn lk * Cert.Spec.rLayer (xarr m c) lk (n / 28) v := by
  intro n
  induction n with
  | zero => intro hn s v; exact invA m c ⟨0, hn⟩ rfl s v
  | succ n ih =>
    intro hn s v
    by_cases h0 : (n + 1) % 28 = 0
    · exact invA m c ⟨n + 1, hn⟩ h0 s v
    · obtain ⟨b1, b2⟩ := stepB m c n hn h0 s v
      obtain ⟨p1, p2⟩ := ih (Nat.lt_of_succ_lt hn) s v
      have e1 : (n + 1) / 28 = n / 28 := by omega
      have e2 : (n + 1) % 28 = n % 28 + 1 := by omega
      constructor
      · rw [b1, p1, e1, e2]; exact (Finset.sum_range_succ _ _).symm
      · rw [b2, p2, e1, e2]; exact (Finset.sum_range_succ _ _).symm

/-- The last point of half `hb`: the one whose blocks are written back. -/
private def lastPt (hb : Fin 2) : Fin cfg0.N :=
  ⟨28 * hb.val + 27, by rw [show cfg0.N = 56 from N_0]; have := hb.isLt; omega⟩

private theorem lastPt_val (hb : Fin 2) : (lastPt hb).val = 28 * hb.val + 27 := rfl

/-- What the write-back at a half's last point writes to the first result: that half's block of the accumulated sums. -/
private theorem flushed1 (c : Dev nD) (t : Fin cfg0.N) (hf : (cfg0.win 1).flush t = true) :
    (dats (F := Ideal) m 0 c).flushed 1 t
      = ((cfg0.win 1).blk t).view.read (Elt Ideal) (Cert.Spec.msumR (xarr m c)) := by
  have hN := lt56 t
  have h27 : t.val % 28 = 27 := (flush0_1 t).mp hf
  obtain ⟨i0, i1, i2⟩ := idx1 t
  show (cfg0.win 1).cut (grid0.coords t) ((dats (F := Ideal) m 0 c).after 1 t) = _
  rw [after0_1]
  funext y
  obtain ⟨s, v, rfl⟩ : ∃ (s : Fin 8) (v : Fin 1024), y = ix3 (0 : Fin 1) s v :=
    ⟨y 1, y 2, funext fun a => match a with
      | ⟨0, _⟩ => Subsingleton.elim (α := Fin 1) _ _
      | ⟨1, _⟩ => rfl
      | ⟨2, _⟩ => rfl⟩
  show (outsAt0 m c t.val t.isLt).1 (ix3 (0 : Fin 1) s v)
    = Cert.Spec.msumR (xarr m c) (((cfg0.win 1).blk t).view.emb (ix3 (0 : Fin 1) s v))
  have he : ((cfg0.win 1).blk t).view.emb (ix3 (0 : Fin 1) s v) = ix3 (⟨t.val / 28, by omega⟩ : Fin 2) s v := by
    funext a
    apply Fin.ext
    match a with
    | ⟨0, _⟩ => show win0_1.index t 0 * 1 + 1 * 0 = t.val / 28; rw [i0]; omega
    | ⟨1, _⟩ => show win0_1.index t 1 * 8 + 1 * s.val = s.val; rw [i1]; omega
    | ⟨2, _⟩ => show win0_1.index t 2 * 1024 + 1 * v.val = v.val; rw [i2]; omega
  rw [he, (acc_inv m c t.val t.isLt s v).1, h27]
  rfl

/-- The same for the second result: that half's block of the contrast sums. -/
private theorem flushed2 (c : Dev nD) (t : Fin cfg0.N) (hf : (cfg0.win 2).flush t = true) :
    (dats (F := Ideal) m 0 c).flushed 2 t
      = ((cfg0.win 2).blk t).view.read (Elt Ideal) (Cert.Spec.csumR (xarr m c)) := by
  have hN := lt56 t
  have h27 : t.val % 28 = 27 := (flush0_2 t).mp hf
  obtain ⟨i0, i1, i2⟩ := idx2 t
  show (cfg0.win 2).cut (grid0.coords t) ((dats (F := Ideal) m 0 c).after 2 t) = _
  rw [after0_2]
  funext y
  obtain ⟨s, v, rfl⟩ : ∃ (s : Fin 8) (v : Fin 1024), y = ix3 (0 : Fin 1) s v :=
    ⟨y 1, y 2, funext fun a => match a with
      | ⟨0, _⟩ => Subsingleton.elim (α := Fin 1) _ _
      | ⟨1, _⟩ => rfl
      | ⟨2, _⟩ => rfl⟩
  show (outsAt0 m c t.val t.isLt).2 (ix3 (0 : Fin 1) s v)
    = Cert.Spec.csumR (xarr m c) (((cfg0.win 2).blk t).view.emb (ix3 (0 : Fin 1) s v))
  have he : ((cfg0.win 2).blk t).view.emb (ix3 (0 : Fin 1) s v) = ix3 (⟨t.val / 28, by omega⟩ : Fin 2) s v := by
    funext a
    apply Fin.ext
    match a with
    | ⟨0, _⟩ => show win0_2.index t 0 * 1 + 1 * 0 = t.val / 28; rw [i0]; omega
    | ⟨1, _⟩ => show win0_2.index t 1 * 8 + 1 * s.val = s.val; rw [i1]; omega
    | ⟨2, _⟩ => show win0_2.index t 2 * 1024 + 1 * v.val = v.val; rw [i2]; omega
  rw [he, (acc_inv m c t.val t.isLt s v).2, h27]
  rfl

/-- The first accumulator array after the region. -/
theorem final1 (c : Dev nD) :
    (dats (F := Ideal) m 0 c).arrAt 1 cfg0.N = Cert.Spec.msumR (m ((c : Thread nD τ).loc main_arg0)) :=
  (dats (F := Ideal) m 0 c).arrAt_eq_of_cover 1 (Cert.Spec.msumR (xarr m c)) (flushed1 m c) fun i => by
    have h0 : (i 0 : Nat) < 2 := (i 0).isLt
    have h1 : (i 1 : Nat) < 8 := (i 1).isLt
    have h2 : (i 2 : Nat) < 1024 := (i 2).isLt
    obtain ⟨j0, j1, j2⟩ := idx1 (lastPt ⟨(i 0 : Nat), h0⟩)
    rw [lastPt_val] at j0
    refine ⟨lastPt ⟨(i 0 : Nat), h0⟩, (flush0_1 _).mpr (by rw [lastPt_val]; omega), ?_⟩
    show i ∈ ((View.whole main_v0_0).slice (win0_1.rect (lastPt ⟨(i 0 : Nat), h0⟩))).set
    rw [View.set_slice_whole, Rect.mem_set_unit]
    intro a
    match a with
    | ⟨0, _⟩ =>
      show win0_1.index (lastPt ⟨(i 0 : Nat), h0⟩) 0 * 1 ≤ (i 0 : Nat)
        ∧ (i 0 : Nat) < win0_1.index (lastPt ⟨(i 0 : Nat), h0⟩) 0 * 1 + 1
      rw [j0]; dsimp only; omega
    | ⟨1, _⟩ =>
      show win0_1.index (lastPt ⟨(i 0 : Nat), h0⟩) 1 * 8 ≤ (i 1 : Nat)
        ∧ (i 1 : Nat) < win0_1.index (lastPt ⟨(i 0 : Nat), h0⟩) 1 * 8 + 8
      rw [j1]; omega
    | ⟨2, _⟩ =>
      show win0_1.index (lastPt ⟨(i 0 : Nat), h0⟩) 2 * 1024 ≤ (i 2 : Nat)
        ∧ (i 2 : Nat) < win0_1.index (lastPt ⟨(i 0 : Nat), h0⟩) 2 * 1024 + 1024
      rw [j2]; omega

/-- The second accumulator array after the region. -/
theorem final2 (c : Dev nD) :
    (dats (F := Ideal) m 0 c).arrAt 2 cfg0.N = Cert.Spec.csumR (m ((c : Thread nD τ).loc main_arg0)) :=
  (dats (F := Ideal) m 0 c).arrAt_eq_of_cover 2 (Cert.Spec.csumR (xarr m c)) (flushed2 m c) fun i => by
    have h0 : (i 0 : Nat) < 2 := (i 0).isLt
    have h1 : (i 1 : Nat) < 8 := (i 1).isLt
    have h2 : (i 2 : Nat) < 1024 := (i 2).isLt
    obtain ⟨j0, j1, j2⟩ := idx2 (lastPt ⟨(i 0 : Nat), h0⟩)
    rw [lastPt_val] at j0
    refine ⟨lastPt ⟨(i 0 : Nat), h0⟩, (flush0_2 _).mpr (by rw [lastPt_val]; omega), ?_⟩
    show i ∈ ((View.whole main_v0_1).slice (win0_2.rect (lastPt ⟨(i 0 : Nat), h0⟩))).set
    rw [View.set_slice_whole, Rect.mem_set_unit]
    intro a
    match a with
    | ⟨0, _⟩ =>
      show win0_2.index (lastPt ⟨(i 0 : Nat), h0⟩) 0 * 1 ≤ (i 0 : Nat)
        ∧ (i 0 : Nat) < win0_2.index (lastPt ⟨(i 0 : Nat), h0⟩) 0 * 1 + 1
      rw [j0]; dsimp only; omega
    | ⟨1, _⟩ =>
      show win0_2.index (lastPt ⟨(i 0 : Nat), h0⟩) 1 * 8 ≤ (i 1 : Nat)
        ∧ (i 1 : Nat) < win0_2.index (lastPt ⟨(i 0 : Nat), h0⟩) 1 * 8 + 8
      rw [j1]; omega
    | ⟨2, _⟩ =>
      show win0_2.index (lastPt ⟨(i 0 : Nat), h0⟩) 2 * 1024 ≤ (i 2 : Nat)
        ∧ (i 2 : Nat) < win0_2.index (lastPt ⟨(i 0 : Nat), h0⟩) 2 * 1024 + 1024
      rw [j2]; omega

end Value

end Cert.ReferenceIdeal.RefValue

end
-- ==== Proof.RTail.lean ====
/-
  The host operations after the region, read as functions of the two accumulator arrays the region leaves:
  each is collapsed to a vector of 1024 sums, divided by its count, and the contrast result is then rectified.
-/
import proofs.«156739_g2000006290178658_pallasbulk_805_4_alg».proof.Proof.Spec
import proofs.«156739_g2000006290178658_pallasbulk_805_4_alg».proof.Proof.Gen.ReferenceIdeal.Frame
import Idealize.ShloMosaic.Lib.StableHlo.Run
import Idealize.ShloMosaic.Lib.Pipeline.Value
import Idealize.ShloMosaic.PureOps.Ideal.Laws
import Idealize.ShloMosaic.Lib.IdealHost

noncomputable section

namespace Cert.ReferenceIdeal.Tail

open Idealize.ShloMosaic Idealize.ShloMosaic.TcCoe Idealize.SL.Sem Idealize.ShloMosaic.ValueIdx
open Idealize.ShloMosaic.Pipeline (Dat)
open Cert.ReferenceIdeal Cert.ReferenceIdeal.Gen

/-- Row 0 of every half cut out, flattened to two rows and summed over them at column j: the initial value plus the sum
    over the halves of the array at (half, row 0, column j). -/
private theorem reduceRow0 (A : Cert.Spec.A3.Idx → EReal) (hs : Cert.Spec.A3.Slices ![0, 0, 0] S2x1x1024)
    (hc : S2x1x1024.ShapeCasts S2x1024) (h : S2x1024.ReducesTo [0] Cert.Spec.V1) (init : EReal) (j : Cert.Spec.V1.Idx) :
    Ideal.hostReduceAdd h (shapeCast S2x1024 (extractStridedSlice S2x1x1024 ![0, 0, 0] A hs) hc) init j
      = init + ∑ hb : Fin 2, A (ix3 hb (0 : Fin 8) (j 0)) := by
  have hr : S2x1024.Reduces [0] Cert.Spec.V1 := by decide
  rw [Ideal.hostReduceAdd_single h hr]
  refine congrArg (init + ·) (Fintype.sum_congr _ _ fun (k : Fin 2) => ?_)
  refine (shapeCast_apply (extractStridedSlice S2x1x1024 ![0, 0, 0] A hs) hc (hr.lift j k)
    (ix3 k (0 : Fin 1) (j 0)) ?_).trans ?_
  · rw [Shape.rowMajor_val_three, Shape.rowMajor_val_two]
    show (k.val * 1 + 0) * 1024 + (j 0).val = k.val * 1024 + (j 0).val
    omega
  · refine extractStridedSlice_apply _ A hs _ (ix3 k (0 : Fin 8) (j 0)) fun a => ?_
    match a with
    | ⟨0, _⟩ => show k.val = 0 + k.val; omega
    | ⟨1, _⟩ => show (0 : ℕ) = 0 + 0; rfl
    | ⟨2, _⟩ => show (j 0).val = 0 + (j 0).val; omega

/-- The mean's operations on any array A: row 0 collapsed over the halves from zero, divided by the broadcast count. -/
private theorem mean_fn (A : Cert.Spec.A3.Idx → EReal) (hs : Cert.Spec.A3.Slices ![0, 0, 0] S2x1x1024)
    (hc : S2x1x1024.ShapeCasts S2x1024) (h : S2x1024.ReducesTo [0] Cert.Spec.V1) (hu : 0 < S_.numel)
    (hb : S_.BroadcastsInDim S1024 (![] : Fin 0 → Fin S1024.rank)) :
    Host.divf (Host.reduceAdd (F := Ideal) (φ := .f32) (shapeCast S2x1024 (extractStridedSlice S2x1x1024 ![0, 0, 0] A hs) hc)
          (constant S_ .f32 0x00000000#32) h hu)
        (broadcastInDim S1024 ![] hb (constant S_ .f32 0x47C40000#32))
      = Cert.Spec.outMean (Cert.Spec.foldR A) := by
  funext j
  rw [hostDivf_apply, hostReduceAdd_apply, reduceRow0, constant_apply, Ideal.ofBits_zero_f32, zero_add,
    broadcastInDim_scalar_apply, constant_apply]
  rfl

/-- The contrast's operations on any array A: the same collapse, divided by its count, then the maximum with zero. -/
private theorem contr_fn (A : Cert.Spec.A3.Idx → EReal) (hs : Cert.Spec.A3.Slices ![0, 0, 0] S2x1x1024)
    (hc : S2x1x1024.ShapeCasts S2x1024) (h : S2x1024.ReducesTo [0] Cert.Spec.V1) (hu : 0 < S_.numel)
    (hb : S_.BroadcastsInDim S1024 (![] : Fin 0 → Fin S1024.rank)) :
    maximumf (Host.divf (Host.reduceAdd (F := Ideal) (φ := .f32) (shapeCast S2x1024 (extractStridedSlice S2x1x1024 ![0, 0, 0] A hs) hc)
          (constant S_ .f32 0x00000000#32) h hu)
        (broadcastInDim S1024 ![] hb (constant S_ .f32 0x45600000#32)))
        (broadcastInDim S1024 ![] hb (constant S_ .f32 0x00000000#32))
      = Cert.Spec.outContr (Cert.Spec.foldR A) := by
  funext j
  rw [maximumf_apply, hostDivf_apply, hostReduceAdd_apply, reduceRow0, constant_apply, Ideal.ofBits_zero_f32, zero_add,
    broadcastInDim_scalar_apply, broadcastInDim_scalar_apply, constant_apply, constant_apply]
  rfl

variable (m : (ℓ : Loc nD τ sig) → Buf (Elt Ideal) ℓ)

/-- The first result after the tail: the mean of the collapsed first accumulator array, whatever proof data names that array. -/
theorem tail_mean (dats : (p : Fin 1) → (c : Dev nD) → Dat τ (Elt Ideal) Unit ℕ (UR sig nD τ) ℕ (cfgs p) c) (c : Dev nD) :
    Pipeline.afterTail₀ cfgs dats 0 (V0 m) [hostOps1] c main_v5
      = Cert.Spec.outMean (Cert.Spec.foldR ((dats 0 c).arrAt 1 cfg0.N)) := by
  unfold Pipeline.afterTail₀
  show StableHlo.after hostOps1 _ (Proc.devRef .tc main_v5) = _
  after_results
  have e := Pipeline.withArrays_arr spec0 launch0.win.arr_inj c (V0 m c) (fun w => (dats 0 c).arrAt w cfg0.N) 1
  rw [show Pipeline.withArrays (cfgs 0).spec c (V0 m c) (fun w => (dats 0 c).arrAt w (cfgs 0).N) (Proc.devRef .tc main_v0_0)
      = (dats 0 c).arrAt 1 cfg0.N from e]
  exact mean_fn _ _ _ _ _ _

/-- The second result after the tail: the rectified scaled collapse of the second accumulator array. -/
theorem tail_contr (dats : (p : Fin 1) → (c : Dev nD) → Dat τ (Elt Ideal) Unit ℕ (UR sig nD τ) ℕ (cfgs p) c) (c : Dev nD) :
    Pipeline.afterTail₀ cfgs dats 0 (V0 m) [hostOps1] c main_v12
      = Cert.Spec.outContr (Cert.Spec.foldR ((dats 0 c).arrAt 2 cfg0.N)) := by
  unfold Pipeline.afterTail₀
  show StableHlo.after hostOps1 _ (Proc.devRef .tc main_v12) = _
  after_results
  have e := Pipeline.withArrays_arr spec0 launch0.win.arr_inj c (V0 m c) (fun w => (dats 0 c).arrAt w cfg0.N) 2
  rw [show Pipeline.withArrays (cfgs 0).spec c (V0 m c) (fun w => (dats 0 c).arrAt w (cfgs 0).N) (Proc.devRef .tc main_v0_1)
      = (dats 0 c).arrAt 2 cfg0.N from e]
  exact contr_fn _ _ _ _ _ _

end Cert.ReferenceIdeal.Tail

end
-- ==== Proof.lean ====
/-
  The streaming kernel and its reference compute the same two vectors from an attention slab x[l, h, q, v]:
  the mean over all layers, heads and queries, and the rectified difference of the layer-14 and layer-4 sums over
  heads and queries, scaled by the number of rows of a layer. The kernel walks the slab as a row matrix in blocks of two
  layers and keeps eight partial sums per half; the reference walks it a layer at a time, separately for the two halves
  of the heads. Over the extended reals both first results are one finite sum regrouped (no finiteness is needed);
  the second results agree because every entry is a real number under the precondition, so that sums and differences
  may be regrouped in the reals. The frames: the reference's is the generated one; the kernel's two (word level and
  idealized) are the hand-written frame of its body, the same text at both instances.
-/
import proofs.«156739_g2000006290178658_pallasbulk_805_4_alg».proof.Defs
import proofs.«156739_g2000006290178658_pallasbulk_805_4_alg».proof.Proof.Gen.Kernel
import proofs.«156739_g2000006290178658_pallasbulk_805_4_alg».proof.Proof.Gen.KernelIdeal
import proofs.«156739_g2000006290178658_pallasbulk_805_4_alg».proof.Proof.Gen.ReferenceIdeal
import proofs.«156739_g2000006290178658_pallasbulk_805_4_alg».proof.Proof.Gen.ReferenceIdeal.Frame
import proofs.«156739_g2000006290178658_pallasbulk_805_4_alg».proof.Proof.Gen.Pre_finite_inputs
import proofs.«156739_g2000006290178658_pallasbulk_805_4_alg».proof.Proof.Spec
import proofs.«156739_g2000006290178658_pallasbulk_805_4_alg».proof.Proof.Algebra
import proofs.«156739_g2000006290178658_pallasbulk_805_4_alg».proof.Proof.Finite
import proofs.«156739_g2000006290178658_pallasbulk_805_4_alg».proof.Proof.KBody
import proofs.«156739_g2000006290178658_pallasbulk_805_4_alg».proof.Proof.KBBody
import proofs.«156739_g2000006290178658_pallasbulk_805_4_alg».proof.Proof.KValue
import proofs.«156739_g2000006290178658_pallasbulk_805_4_alg».proof.Proof.KTail
import proofs.«156739_g2000006290178658_pallasbulk_805_4_alg».proof.Proof.RValue
import proofs.«156739_g2000006290178658_pallasbulk_805_4_alg».proof.Proof.RTail
import Idealize.ShloMosaic.Adequacy
import Idealize.ShloMosaic.Init

noncomputable section

namespace Cert.Proof

open Idealize.ShloMosaic Idealize.SL.Sem

section Claims

variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ => Cert.ReferenceIdeal.Gen.frame m ρ

/-- Both programs end with the mean and the rectified contrast of the same collapsed sums. -/
theorem algebraic : Cert.algebraic_KernelIdeal_ReferenceIdeal := by
  intro m ρ m' ρ' hpre hagree
  refine ⟨fun c => Cert.Spec.outMean (Cert.Spec.foldK (Cert.Spec.msumK (m ((c.tc : Thread Cert.KernelIdeal.nD Cert.KernelIdeal.τ).loc Cert.KernelIdeal.main_arg0)))),
    fun c => Cert.Spec.outContr (Cert.Spec.foldK (Cert.Spec.csumK (m ((c.tc : Thread Cert.KernelIdeal.nD Cert.KernelIdeal.τ).loc Cert.KernelIdeal.main_arg0)))), ?_, ?_⟩
  · refine (θ_run Cert.KernelIdeal.defs _ _).mono (fun r h c => ?_) (Cert.KernelIdeal.Body.run_main (F := Ideal) m ρ)
    obtain ⟨-, hrest⟩ := h c
    refine ⟨?_, ?_, ?_⟩
    · rw [hrest Cert.KernelIdeal.main_v4 (Pipeline.mem_restRefs_of Cert.KernelIdeal.main_v4 (by decide) (by decide)),
        Cert.KernelIdeal.Tail.tail_mean, Cert.KernelIdeal.KValue.final1]
    · rw [hrest Cert.KernelIdeal.main_v9 (Pipeline.mem_restRefs_of Cert.KernelIdeal.main_v9 (by decide) (by decide)),
        Cert.KernelIdeal.Tail.tail_contr, Cert.KernelIdeal.KValue.final2]
    · exact (hrest Cert.KernelIdeal.main_arg0 (Pipeline.mem_restRefs_of Cert.KernelIdeal.main_arg0 (by decide) (by decide))).trans
        (Cert.KernelIdeal.Gen.W_main_arg0 m (Cert.KernelIdeal.Body.dats m) c)
  · refine (θ_run Cert.ReferenceIdeal.defs _ _).mono (fun r h c => ?_) (Cert.ReferenceIdeal.Gen.run_main (F := Ideal) m' ρ')
    obtain ⟨harr, hrest⟩ := h c
    refine ⟨?_, ?_, ?_⟩
    · rw [hrest Cert.ReferenceIdeal.main_v5 (Pipeline.mem_restRefs_of Cert.ReferenceIdeal.main_v5 (by decide) (by decide)),
        Cert.ReferenceIdeal.Tail.tail_mean, Cert.ReferenceIdeal.RefValue.final1, hagree c, ← Cert.Spec.mean_eq]
    · rw [hrest Cert.ReferenceIdeal.main_v12 (Pipeline.mem_restRefs_of Cert.ReferenceIdeal.main_v12 (by decide) (by decide)),
        Cert.ReferenceIdeal.Tail.tail_contr, Cert.ReferenceIdeal.RefValue.final2, hagree c,
        ← Cert.Spec.contr_eq _ (Cert.Finite.real_of_pre _ (hpre c))]
    · exact (harr 0).trans (((Cert.ReferenceIdeal.Gen.dats m' 0 c).arrAt_in 0 rfl _).trans
        ((Cert.ReferenceIdeal.Gen.A_eq m' c 0).trans (Cert.ReferenceIdeal.Gen.V_main_arg0 m' c)))

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
